-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S512x40 .f32) (main_arg10 : FVec F S40 .f32) (main_v33 : IVec S_ 1) : IVec S_ 1 :=
  let main_v34 : FVec F S512x40 .f32 := Host.absf main_arg9
  let main_cst_12 : FVec F S_ .f32 := constant S_ .f32 0x7F800000#32
  let main_v35 : FVec F S512x40 .f32 := broadcastInDim S512x40 ![] bcast_S_S512x40 main_cst_12
  let main_v36 : IVec S512x40 1 := cmpf .olt main_v34 main_v35
  let main_c_13 : IVec S_ 1 := constantI S_ 1 1#1
  let main_v37 : IVec S_ 1 := (fun x v => Host.reduce IntOp.andi x v reducesTo_S512x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg6 : FVec F S512 .f32) (main_arg7 : FVec F S512x512 .f32) (main_arg8 : FVec F S512 .f32) (main_arg9 : FVec F S512x40 .f32) (main_arg10 : FVec F S40 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg7
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_v33

def fn {F : FTy → Type} [FloatOps F] (main_arg0 : FVec F S50000x512 .f32) (main_arg1 : IVec S400000 32) (main_arg2 : IVec S400000 32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x40 .f32) (main_arg10 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_v13 main_v16
-- ==== Kernel.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S_ : Shape := ⟨0, ![]⟩
abbrev S400000x1 : Shape := ⟨2, ![400000, 1]⟩
abbrev S400000x512 : Shape := ⟨2, ![400000, 512]⟩
abbrev S1x512 : Shape := ⟨2, ![1, 512]⟩
abbrev S2000x512 : Shape := ⟨2, ![2000, 512]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 61
  | .vmem => 24
  | .smem => 0
  | _ => 0

abbrev bufTy : (tb : Table) → Fin (tcTables nBuf tb) → BufTy
  | .hbm, ⟨0, _⟩ => ⟨S50000x512, .f32⟩
  | .hbm, ⟨1, _⟩ => ⟨S400000, .i32⟩
  | .hbm, ⟨2, _⟩ => ⟨S400000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x40, .f32⟩
  | .hbm, ⟨10, _⟩ => ⟨S40, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x512, .f32⟩
  | .hbm, ⟨20, _⟩ => ⟨S_, .f32⟩
  | .hbm, ⟨21, _⟩ => ⟨S50000x512, .f32⟩
  | .hbm, ⟨22, _⟩ => ⟨S400000x1, .i32⟩
  | .hbm, ⟨23, _⟩ => ⟨S50000x512, .f32⟩
  | .hbm, ⟨24, _⟩ => ⟨S50000x512, .f32⟩
  | .hbm, ⟨25, _⟩ => ⟨S1x512, .f32⟩
  | .hbm, ⟨26, _⟩ => ⟨S50000x512, .f32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000x512, .f32⟩
  | .hbm, ⟨36, _⟩ => ⟨S_, .f32⟩
  | .hbm, ⟨37, _⟩ => ⟨S50000x512, .f32⟩
  | .hbm, ⟨38, _⟩ => ⟨S400000x1, .i32⟩
  | .hbm, ⟨39, _⟩ => ⟨S50000x512, .f32⟩
  | .hbm, ⟨40, _⟩ => ⟨S50000x512, .f32⟩
  | .hbm, ⟨41, _⟩ => ⟨S1x512, .f32⟩
  | .hbm, ⟨42, _⟩ => ⟨S50000x512, .f32⟩
  | .hbm, ⟨43, _⟩ => ⟨S_, .i32⟩
  | .hbm, ⟨44, _⟩ => ⟨S400000, .i32⟩
  | .hbm, ⟨45, _⟩ => ⟨S400000, .i1⟩
  | .hbm, ⟨46, _⟩ => ⟨S_, .i32⟩
  | .hbm, ⟨47, _⟩ => ⟨S400000, .i32⟩
  | .hbm, ⟨48, _⟩ => ⟨S400000, .i32⟩
  | .hbm, ⟨49, _⟩ => ⟨S400000, .i32⟩
  | .hbm, ⟨50, _⟩ => ⟨S400000x1, .i32⟩
  | .hbm, ⟨51, _⟩ => ⟨S400000x512, .f32⟩
  | .hbm, ⟨52, _⟩ => ⟨S_, .f32⟩
  | .hbm, ⟨53, _⟩ => ⟨S50000x512, .f32⟩
  | .hbm, ⟨54, _⟩ => ⟨S400000x1, .i32⟩
  | .hbm, ⟨55, _⟩ => ⟨S50000x512, .f32⟩
  | .hbm, ⟨56, _⟩ => ⟨S50000x512, .f32⟩
  | .hbm, ⟨57, _⟩ => ⟨S1x512, .f32⟩
  | .hbm, ⟨58, _⟩ => ⟨S50000x512, .f32⟩
  | .hbm, ⟨59, _⟩ => ⟨S1x40, .f32⟩
  | .hbm, ⟨60, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S512x512, .f32⟩
  | .local _ .vmem, ⟨9, _⟩ => ⟨S1x512, .f32⟩
  | .local _ .vmem, ⟨10, _⟩ => ⟨S2000x512, .f32⟩
  | .local _ .vmem, ⟨11, _⟩ => ⟨S2000x512, .f32⟩
  | .local _ .vmem, ⟨12, _⟩ => ⟨S2000x512, .f32⟩
  | .local _ .vmem, ⟨13, _⟩ => ⟨S2000x512, .f32⟩
  | .local _ .vmem, ⟨14, _⟩ => ⟨S512x512, .f32⟩
  | .local _ .vmem, ⟨15, _⟩ => ⟨S1x512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S2000x512, .f32⟩
  | .local _ .vmem, ⟨20, _⟩ => ⟨S512x40, .f32⟩
  | .local _ .vmem, ⟨21, _⟩ => ⟨S1x40, .f32⟩
  | .local _ .vmem, ⟨22, _⟩ => ⟨S2000x40, .f32⟩
  | .local _ .vmem, ⟨23, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  shapeCasts_S40_S1x40 : S40.ShapeCasts S1x40
  inb_S512x40_S512x40_0_0 : ∀ a, (![0, 0] : Fin 2 → Nat) a + S512x40.size a ≤ S512x40.size a
  h_S512x40 : 0 < S512x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S2000x512_S512x512_S2000x512_1_0_0_1_n_n_wf : DotDims.WF S2000x512 S512x512 S2000x512 [1] [0] [0] [1] [] []
  dot_S2000x512_S512x40_S2000x40_1_0_0_1_n_n_wf : DotDims.WF S2000x512 S512x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S50000x512.size a
  hwx1_3 : ∀ i : grid1.Coords, EltTy.bits .f32 = 32 ∨ (Rect.block (s := S50000x512) S2000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x512.size a ≤ S50000x512.size a
  hwx2_3 : ∀ i : grid2.Coords, EltTy.bits .f32 = 32 ∨ (Rect.block (s := S50000x512) S2000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x40.size a ≤ S512x40.size a
  hwx3_1 : ∀ i : grid3.Coords, EltTy.bits .f32 = 32 ∨ (Rect.block (s := S512x40) S512x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S50000x40.size a
  hwx3_3 : ∀ i : grid3.Coords, EltTy.bits .f32 = 32 ∨ (Rect.block (s := S50000x40) S2000x40.size (cc3_transform_3 i) (hinb3_3 i)).WholeWords (EltTy.packing .f32)

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x40_S2000x40_1_0_0_1_n_n : DotDims S2000x512 S512x40 S2000x40 where
  lhsContracting := [1]
  rhsContracting := [0]
  lhsNonContracting := [0]
  rhsNonContracting := [1]
  lhsBatch := []
  rhsBatch := []
  wf := dot_S2000x512_S512x40_S2000x40_1_0_0_1_n_n_wf

abbrev win0_0 : Pipeline.Window sig grid0 :=
  Pipeline.Window.ofSpec (Memref.whole main_v10) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S2000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S512x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S_ : Shape := ⟨0, ![]⟩
abbrev S400000x1 : Shape := ⟨2, ![400000, 1]⟩
abbrev S400000x512 : Shape := ⟨2, ![400000, 512]⟩
abbrev S1x512 : Shape := ⟨2, ![1, 512]⟩
abbrev S50000x40 : Shape := ⟨2, ![50000, 40]⟩
abbrev S1x40 : Shape := ⟨2, ![1, 40]⟩

abbrev nBuf : Space → Nat
  | .hbm => 78
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S400000, .i32⟩
  | .hbm, ⟨2, _⟩ => ⟨S400000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x40, .f32⟩
  | .hbm, ⟨10, _⟩ => ⟨S40, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x512, .f32⟩
  | .hbm, ⟨20, _⟩ => ⟨S_, .f32⟩
  | .hbm, ⟨21, _⟩ => ⟨S50000x512, .f32⟩
  | .hbm, ⟨22, _⟩ => ⟨S400000x1, .i32⟩
  | .hbm, ⟨23, _⟩ => ⟨S50000x512, .f32⟩
  | .hbm, ⟨24, _⟩ => ⟨S50000x512, .f32⟩
  | .hbm, ⟨25, _⟩ => ⟨S50000x512, .f32⟩
  | .hbm, ⟨26, _⟩ => ⟨S1x512, .f32⟩
  | .hbm, ⟨27, _⟩ => ⟨S50000x512, .f32⟩
  | .hbm, ⟨28, _⟩ => ⟨S50000x512, .f32⟩
  | .hbm, ⟨29, _⟩ => ⟨S_, .f32⟩
  | .hbm, ⟨30, _⟩ => ⟨S50000x512, .f32⟩
  | .hbm, ⟨31, _⟩ => ⟨S50000x512, .f32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x512, .f32⟩
  | .hbm, ⟨41, _⟩ => ⟨S_, .f32⟩
  | .hbm, ⟨42, _⟩ => ⟨S50000x512, .f32⟩
  | .hbm, ⟨43, _⟩ => ⟨S400000x1, .i32⟩
  | .hbm, ⟨44, _⟩ => ⟨S50000x512, .f32⟩
  | .hbm, ⟨45, _⟩ => ⟨S50000x512, .f32⟩
  | .hbm, ⟨46, _⟩ => ⟨S50000x512, .f32⟩
  | .hbm, ⟨47, _⟩ => ⟨S1x512, .f32⟩
  | .hbm, ⟨48, _⟩ => ⟨S50000x512, .f32⟩
  | .hbm, ⟨49, _⟩ => ⟨S50000x512, .f32⟩
  | .hbm, ⟨50, _⟩ => ⟨S_, .f32⟩
  | .hbm, ⟨51, _⟩ => ⟨S50000x512, .f32⟩
  | .hbm, ⟨52, _⟩ => ⟨S50000x512, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S400000x512, .f32⟩
  | .hbm, ⟨62, _⟩ => ⟨S_, .f32⟩
  | .hbm, ⟨63, _⟩ => ⟨S50000x512, .f32⟩
  | .hbm, ⟨64, _⟩ => ⟨S400000x1, .i32⟩
  | .hbm, ⟨65, _⟩ => ⟨S50000x512, .f32⟩
  | .hbm, ⟨66, _⟩ => ⟨S50000x512, .f32⟩
  | .hbm, ⟨67, _⟩ => ⟨S50000x512, .f32⟩
  | .hbm, ⟨68, _⟩ => ⟨S1x512, .f32⟩
  | .hbm, ⟨69, _⟩ => ⟨S50000x512, .f32⟩
  | .hbm, ⟨70, _⟩ => ⟨S50000x512, .f32⟩
  | .hbm, ⟨71, _⟩ => ⟨S_, .f32⟩
  | .hbm, ⟨72, _⟩ => ⟨S50000x512, .f32⟩
  | .hbm, ⟨73, _⟩ => ⟨S50000x512, .f32⟩
  | .hbm, ⟨74, _⟩ => ⟨S50000x40, .f32⟩
  | .hbm, ⟨75, _⟩ => ⟨S1x40, .f32⟩
  | .hbm, ⟨76, _⟩ => ⟨S50000x40, .f32⟩
  | .hbm, ⟨77, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_cst : Ref sig .tc := ⟨.hbm, 29, rfl⟩
abbrev main_call0_v0 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call2_cst : Ref sig .tc := ⟨.hbm, 71, rfl⟩
abbrev main_call2_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x512_S50000x512_1_0_0_1_n_n_wf : DotDims.WF S50000x512 S512x512 S50000x512 [1] [0] [0] [1] [] []
  dot_S50000x512_S512x40_S50000x40_1_0_0_1_n_n_wf : DotDims.WF S50000x512 S512x40 S50000x40 [1] [0] [0] [1] [] []

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x40_S50000x40_1_0_0_1_n_n : DotDims S50000x512 S512x40 S50000x40 where
  lhsContracting := [1]
  rhsContracting := [0]
  lhsNonContracting := [0]
  rhsNonContracting := [1]
  lhsBatch := []
  rhsBatch := []
  wf := dot_S50000x512_S512x40_S50000x40_1_0_0_1_n_n_wf

class Facts : Prop extends Facts₀ where

variable [Facts]
-- ==== Proof.HostFold.lean ====
/-
  What each region of @main finds in its input arrays, read back through the host operations between the regions
  (for any float instance).

  Before each hidden layer's launch the host adds to every node's row the rows of its in-neighbours: the source
  indices are wrapped when negative, the rows gathered, scatter-added at the destination indices into zeros, and the
  result added to the activations (`aggregate`); the layer's bias is reshaped from a vector to a one-row matrix
  (`biasRow`). The weights and the two index arrays are arguments that nothing writes, so at every stage they are
  still what @main was launched with. Each launch then reads the aggregate of the previous launch's output array.
-/
import proofs.«101499_j11751030522384_1_alg».proof.Proof.Gen.KernelIdeal.Frame
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.SL.Sem Idealize.ShloMosaic.StableHlo

variable {F : FTy → Type} [FloatOps F]

/-- Neighbour aggregation: `h` plus, at each destination row, the sum of the rows of `h` at the matching sources
    (a negative source index first wrapped by the number of rows). -/
def aggregate (h : (⟨S50000x512, .f32⟩ : BufTy).Contents (Elt F)) (src dst : (⟨S400000, .i32⟩ : BufTy).Contents (Elt F)) :
    (⟨S50000x512, .f32⟩ : BufTy).Contents (Elt F) :=
  addf h (Host.scatterAdd scatter_S50000x512_S400000x1_S400000x512_1_0_0_1
    (broadcastInDim S50000x512 ![] bcast_S_S50000x512 (constant S_ .f32 0x00000000#32))
    (broadcastInDim S400000x1 ![0] bcast_S400000_S400000x1_0 dst)
    (Host.gather gather_S50000x512_S400000x1_S400000x512_1_0_n_n_0_1_1512 h
      (broadcastInDim S400000x1 ![0] bcast_S400000_S400000x1_0
        (select (cmpi .slt src (broadcastInDim S400000 ![] bcast_S_S400000 (constantI S_ 32 0#32)))
          (addi src (broadcastInDim S400000 ![] bcast_S_S400000 (constantI S_ 32 50000#32))) src))))

/-- A hidden layer's bias vector as a one-row matrix. -/
def biasRow (b : (⟨S512, .f32⟩ : BufTy).Contents (Elt F)) : (⟨S1x512, .f32⟩ : BufTy).Contents (Elt F) :=
  fun i => shapeCast S1x512 b shapeCasts_S512_S1x512 i

/-- The classifier's bias vector as a one-row matrix. -/
def biasRowOut (b : (⟨S40, .f32⟩ : BufTy).Contents (Elt F)) : (⟨S1x40, .f32⟩ : BufTy).Contents (Elt F) :=
  fun i => shapeCast S1x40 b shapeCasts_S40_S1x40 i

/-! ## Each stretch of host operations, from any buffer contents `Wc` -/

theorem stretch0_z (Wc : Valuation τ sig (Elt F)) :
    StableHlo.after hostOps0 Wc (Proc.devRef .tc main_v10) = aggregate (Wc (Proc.devRef .tc main_arg0)) (Wc (Proc.devRef .tc main_arg1)) (Wc (Proc.devRef .tc main_arg2)) := by
  after_results
  rfl
theorem stretch0_b (Wc : Valuation τ sig (Elt F)) :
    StableHlo.after hostOps0 Wc (Proc.devRef .tc main_v11) = biasRow (Wc (Proc.devRef .tc main_arg4)) := by
  after_results
  rfl
theorem stretch0_arg1 (Wc : Valuation τ sig (Elt F)) :
    StableHlo.after hostOps0 Wc (Proc.devRef .tc main_arg1) = Wc (Proc.devRef .tc main_arg1) := by
  after_results
theorem stretch0_arg2 (Wc : Valuation τ sig (Elt F)) :
    StableHlo.after hostOps0 Wc (Proc.devRef .tc main_arg2) = Wc (Proc.devRef .tc main_arg2) := by
  after_results
theorem stretch0_arg3 (Wc : Valuation τ sig (Elt F)) :
    StableHlo.after hostOps0 Wc (Proc.devRef .tc main_arg3) = Wc (Proc.devRef .tc main_arg3) := by
  after_results
theorem stretch0_arg5 (Wc : Valuation τ sig (Elt F)) :
    StableHlo.after hostOps0 Wc (Proc.devRef .tc main_arg5) = Wc (Proc.devRef .tc main_arg5) := by
  after_results
theorem stretch0_arg6 (Wc : Valuation τ sig (Elt F)) :
    StableHlo.after hostOps0 Wc (Proc.devRef .tc main_arg6) = Wc (Proc.devRef .tc main_arg6) := by
  after_results
theorem stretch0_arg7 (Wc : Valuation τ sig (Elt F)) :
    StableHlo.after hostOps0 Wc (Proc.devRef .tc main_arg7) = Wc (Proc.devRef .tc main_arg7) := by
  after_results
theorem stretch0_arg8 (Wc : Valuation τ sig (Elt F)) :
    StableHlo.after hostOps0 Wc (Proc.devRef .tc main_arg8) = Wc (Proc.devRef .tc main_arg8) := by
  after_results
theorem stretch0_arg9 (Wc : Valuation τ sig (Elt F)) :
    StableHlo.after hostOps0 Wc (Proc.devRef .tc main_arg9) = Wc (Proc.devRef .tc main_arg9) := by
  after_results
theorem stretch0_arg10 (Wc : Valuation τ sig (Elt F)) :
    StableHlo.after hostOps0 Wc (Proc.devRef .tc main_arg10) = Wc (Proc.devRef .tc main_arg10) := by
  after_results

theorem stretch1_z (Wc : Valuation τ sig (Elt F)) :
    StableHlo.after hostOps1 Wc (Proc.devRef .tc main_v23) = aggregate (Wc (Proc.devRef .tc main_v12)) (Wc (Proc.devRef .tc main_arg1)) (Wc (Proc.devRef .tc main_arg2)) := by
  after_results
  rfl
theorem stretch1_b (Wc : Valuation τ sig (Elt F)) :
    StableHlo.after hostOps1 Wc (Proc.devRef .tc main_v24) = biasRow (Wc (Proc.devRef .tc main_arg6)) := by
  after_results
  rfl
theorem stretch1_arg1 (Wc : Valuation τ sig (Elt F)) :
    StableHlo.after hostOps1 Wc (Proc.devRef .tc main_arg1) = Wc (Proc.devRef .tc main_arg1) := by
  after_results
theorem stretch1_arg2 (Wc : Valuation τ sig (Elt F)) :
    StableHlo.after hostOps1 Wc (Proc.devRef .tc main_arg2) = Wc (Proc.devRef .tc main_arg2) := by
  after_results
theorem stretch1_arg5 (Wc : Valuation τ sig (Elt F)) :
    StableHlo.after hostOps1 Wc (Proc.devRef .tc main_arg5) = Wc (Proc.devRef .tc main_arg5) := by
  after_results
theorem stretch1_arg7 (Wc : Valuation τ sig (Elt F)) :
    StableHlo.after hostOps1 Wc (Proc.devRef .tc main_arg7) = Wc (Proc.devRef .tc main_arg7) := by
  after_results
theorem stretch1_arg8 (Wc : Valuation τ sig (Elt F)) :
    StableHlo.after hostOps1 Wc (Proc.devRef .tc main_arg8) = Wc (Proc.devRef .tc main_arg8) := by
  after_results
theorem stretch1_arg9 (Wc : Valuation τ sig (Elt F)) :
    StableHlo.after hostOps1 Wc (Proc.devRef .tc main_arg9) = Wc (Proc.devRef .tc main_arg9) := by
  after_results
theorem stretch1_arg10 (Wc : Valuation τ sig (Elt F)) :
    StableHlo.after hostOps1 Wc (Proc.devRef .tc main_arg10) = Wc (Proc.devRef .tc main_arg10) := by
  after_results

-- telling this stretch's result buffers apart takes more steps than the earlier stretches': their references come later in the table
set_option maxHeartbeats 1000000 in
theorem stretch2_z (Wc : Valuation τ sig (Elt F)) :
    StableHlo.after hostOps2 Wc (Proc.devRef .tc main_v36) = aggregate (Wc (Proc.devRef .tc main_v25)) (Wc (Proc.devRef .tc main_arg1)) (Wc (Proc.devRef .tc main_arg2)) := by
  after_results
  rfl
theorem stretch2_b (Wc : Valuation τ sig (Elt F)) :
    StableHlo.after hostOps2 Wc (Proc.devRef .tc main_v37) = biasRow (Wc (Proc.devRef .tc main_arg8)) := by
  after_results
  rfl
theorem stretch2_arg7 (Wc : Valuation τ sig (Elt F)) :
    StableHlo.after hostOps2 Wc (Proc.devRef .tc main_arg7) = Wc (Proc.devRef .tc main_arg7) := by
  after_results
theorem stretch2_arg9 (Wc : Valuation τ sig (Elt F)) :
    StableHlo.after hostOps2 Wc (Proc.devRef .tc main_arg9) = Wc (Proc.devRef .tc main_arg9) := by
  after_results
theorem stretch2_arg10 (Wc : Valuation τ sig (Elt F)) :
    StableHlo.after hostOps2 Wc (Proc.devRef .tc main_arg10) = Wc (Proc.devRef .tc main_arg10) := by
  after_results

theorem stretch3_z (Wc : Valuation τ sig (Elt F)) :
    StableHlo.after hostOps3 Wc (Proc.devRef .tc main_v38) = Wc (Proc.devRef .tc main_v38) := by
  after_results
theorem stretch3_b (Wc : Valuation τ sig (Elt F)) :
    StableHlo.after hostOps3 Wc (Proc.devRef .tc main_v39) = biasRowOut (Wc (Proc.devRef .tc main_arg10)) := by
  after_results
  rfl
theorem stretch3_arg9 (Wc : Valuation τ sig (Elt F)) :
    StableHlo.after hostOps3 Wc (Proc.devRef .tc main_arg9) = Wc (Proc.devRef .tc main_arg9) := by
  after_results

variable (m : (ℓ : Loc nD τ sig) → Buf (Elt F) ℓ) (ρ : Dev nD → PrngReg)

/-! ## The arguments later stages read, after each launch: as launched -/

theorem W2_main_arg1 (c : Dev nD) : W2 m ρ c (Proc.devRef .tc main_arg1) = m ((c : Thread nD τ).loc main_arg1) :=
  (W2_of_ne m ρ c main_arg1 (by decide)).trans (stretch0_arg1 (W0 m ρ c))
theorem W2_main_arg2 (c : Dev nD) : W2 m ρ c (Proc.devRef .tc main_arg2) = m ((c : Thread nD τ).loc main_arg2) :=
  (W2_of_ne m ρ c main_arg2 (by decide)).trans (stretch0_arg2 (W0 m ρ c))
theorem W2_main_arg5 (c : Dev nD) : W2 m ρ c (Proc.devRef .tc main_arg5) = m ((c : Thread nD τ).loc main_arg5) :=
  (W2_of_ne m ρ c main_arg5 (by decide)).trans (stretch0_arg5 (W0 m ρ c))
theorem W2_main_arg6 (c : Dev nD) : W2 m ρ c (Proc.devRef .tc main_arg6) = m ((c : Thread nD τ).loc main_arg6) :=
  (W2_of_ne m ρ c main_arg6 (by decide)).trans (stretch0_arg6 (W0 m ρ c))
theorem W2_main_arg7 (c : Dev nD) : W2 m ρ c (Proc.devRef .tc main_arg7) = m ((c : Thread nD τ).loc main_arg7) :=
  (W2_of_ne m ρ c main_arg7 (by decide)).trans (stretch0_arg7 (W0 m ρ c))
theorem W2_main_arg8 (c : Dev nD) : W2 m ρ c (Proc.devRef .tc main_arg8) = m ((c : Thread nD τ).loc main_arg8) :=
  (W2_of_ne m ρ c main_arg8 (by decide)).trans (stretch0_arg8 (W0 m ρ c))
theorem W2_main_arg9 (c : Dev nD) : W2 m ρ c (Proc.devRef .tc main_arg9) = m ((c : Thread nD τ).loc main_arg9) :=
  (W2_of_ne m ρ c main_arg9 (by decide)).trans (stretch0_arg9 (W0 m ρ c))
theorem W2_main_arg10 (c : Dev nD) : W2 m ρ c (Proc.devRef .tc main_arg10) = m ((c : Thread nD τ).loc main_arg10) :=
  (W2_of_ne m ρ c main_arg10 (by decide)).trans (stretch0_arg10 (W0 m ρ c))

theorem W4_main_arg1 (c : Dev nD) : W4 m ρ c (Proc.devRef .tc main_arg1) = m ((c : Thread nD τ).loc main_arg1) :=
  (W4_of_ne m ρ c main_arg1 (by decide)).trans ((stretch1_arg1 (W2 m ρ c)).trans (W2_main_arg1 m ρ c))
theorem W4_main_arg2 (c : Dev nD) : W4 m ρ c (Proc.devRef .tc main_arg2) = m ((c : Thread nD τ).loc main_arg2) :=
  (W4_of_ne m ρ c main_arg2 (by decide)).trans ((stretch1_arg2 (W2 m ρ c)).trans (W2_main_arg2 m ρ c))
theorem W4_main_arg7 (c : Dev nD) : W4 m ρ c (Proc.devRef .tc main_arg7) = m ((c : Thread nD τ).loc main_arg7) :=
  (W4_of_ne m ρ c main_arg7 (by decide)).trans ((stretch1_arg7 (W2 m ρ c)).trans (W2_main_arg7 m ρ c))
theorem W4_main_arg8 (c : Dev nD) : W4 m ρ c (Proc.devRef .tc main_arg8) = m ((c : Thread nD τ).loc main_arg8) :=
  (W4_of_ne m ρ c main_arg8 (by decide)).trans ((stretch1_arg8 (W2 m ρ c)).trans (W2_main_arg8 m ρ c))
theorem W4_main_arg9 (c : Dev nD) : W4 m ρ c (Proc.devRef .tc main_arg9) = m ((c : Thread nD τ).loc main_arg9) :=
  (W4_of_ne m ρ c main_arg9 (by decide)).trans ((stretch1_arg9 (W2 m ρ c)).trans (W2_main_arg9 m ρ c))
theorem W4_main_arg10 (c : Dev nD) : W4 m ρ c (Proc.devRef .tc main_arg10) = m ((c : Thread nD τ).loc main_arg10) :=
  (W4_of_ne m ρ c main_arg10 (by decide)).trans ((stretch1_arg10 (W2 m ρ c)).trans (W2_main_arg10 m ρ c))

theorem W6_main_arg9 (c : Dev nD) : W6 m ρ c (Proc.devRef .tc main_arg9) = m ((c : Thread nD τ).loc main_arg9) :=
  (W6_of_ne m ρ c main_arg9 (by decide)).trans ((stretch2_arg9 (W4 m ρ c)).trans (W4_main_arg9 m ρ c))
theorem W6_main_arg10 (c : Dev nD) : W6 m ρ c (Proc.devRef .tc main_arg10) = m ((c : Thread nD τ).loc main_arg10) :=
  (W6_of_ne m ρ c main_arg10 (by decide)).trans ((stretch2_arg10 (W4 m ρ c)).trans (W4_main_arg10 m ρ c))

/-! ## The first hidden layer's launch -/

theorem entry0_z (c : Dev nD) :
    V1 m ρ c main_v10 = aggregate (m ((c : Thread nD τ).loc main_arg0)) (m ((c : Thread nD τ).loc main_arg1)) (m ((c : Thread nD τ).loc main_arg2)) :=
  stretch0_z (W0 m ρ c)
theorem entry0_w (c : Dev nD) : V1 m ρ c main_arg3 = m ((c : Thread nD τ).loc main_arg3) :=
  stretch0_arg3 (W0 m ρ c)
theorem entry0_b (c : Dev nD) : V1 m ρ c main_v11 = biasRow (m ((c : Thread nD τ).loc main_arg4)) :=
  stretch0_b (W0 m ρ c)
/-- After the launch its output array is what its write-backs leave. -/
theorem exit0 (c : Dev nD) : W2 m ρ c (Proc.devRef .tc main_v12) = (dat0 (V1 m ρ) c).arrAt 3 cfg0.N := W2_arr m ρ c 3

/-! ## The second hidden layer's launch -/

theorem entry1_z (c : Dev nD) :
    V3 m ρ c main_v23 = aggregate (W2 m ρ c (Proc.devRef .tc main_v12)) (m ((c : Thread nD τ).loc main_arg1)) (m ((c : Thread nD τ).loc main_arg2)) :=
  (stretch1_z (W2 m ρ c)).trans (by rw [W2_main_arg1 m ρ c, W2_main_arg2 m ρ c])
theorem entry1_w (c : Dev nD) : V3 m ρ c main_arg5 = m ((c : Thread nD τ).loc main_arg5) :=
  (stretch1_arg5 (W2 m ρ c)).trans (W2_main_arg5 m ρ c)
theorem entry1_b (c : Dev nD) : V3 m ρ c main_v24 = biasRow (m ((c : Thread nD τ).loc main_arg6)) :=
  (stretch1_b (W2 m ρ c)).trans (by rw [W2_main_arg6 m ρ c])
theorem exit1 (c : Dev nD) : W4 m ρ c (Proc.devRef .tc main_v25) = (dat1 (V3 m ρ) c).arrAt 3 cfg1.N := W4_arr m ρ c 3

/-! ## The third hidden layer's launch -/

theorem entry2_z (c : Dev nD) :
    V5 m ρ c main_v36 = aggregate (W4 m ρ c (Proc.devRef .tc main_v25)) (m ((c : Thread nD τ).loc main_arg1)) (m ((c : Thread nD τ).loc main_arg2)) :=
  (stretch2_z (W4 m ρ c)).trans (by rw [W4_main_arg1 m ρ c, W4_main_arg2 m ρ c])
theorem entry2_w (c : Dev nD) : V5 m ρ c main_arg7 = m ((c : Thread nD τ).loc main_arg7) :=
  (stretch2_arg7 (W4 m ρ c)).trans (W4_main_arg7 m ρ c)
theorem entry2_b (c : Dev nD) : V5 m ρ c main_v37 = biasRow (m ((c : Thread nD τ).loc main_arg8)) :=
  (stretch2_b (W4 m ρ c)).trans (by rw [W4_main_arg8 m ρ c])
theorem exit2 (c : Dev nD) : W6 m ρ c (Proc.devRef .tc main_v38) = (dat2 (V5 m ρ) c).arrAt 3 cfg2.N := W6_arr m ρ c 3

/-! ## The classifier's launch -/

theorem entry3_z (c : Dev nD) : V7 m ρ c main_v38 = W6 m ρ c (Proc.devRef .tc main_v38) :=
  stretch3_z (W6 m ρ c)
theorem entry3_w (c : Dev nD) : V7 m ρ c main_arg9 = m ((c : Thread nD τ).loc main_arg9) :=
  (stretch3_arg9 (W6 m ρ c)).trans (W6_main_arg9 m ρ c)
theorem entry3_b (c : Dev nD) : V7 m ρ c main_v39 = biasRowOut (m ((c : Thread nD τ).loc main_arg10)) :=
  (stretch3_b (W6 m ρ c)).trans (by rw [W6_main_arg10 m ρ c])
theorem exit3 (c : Dev nD) : W8 m ρ c (Proc.devRef .tc main_v40) = (dat3 (V7 m ρ) c).arrAt 3 cfg3.N := W8_arr m ρ c 3

end Cert.KernelIdeal.Layer

end
-- ==== Proof.Dense.lean ====
/-
  A dense layer as one function of whole arrays, element by element, over the extended reals.

  For the activations `z` (50000 × 512), a weight matrix `w` and the bias as a one-row matrix `b`, a hidden layer's
  result at row `r`, column `q` is `max (∑ k, z[r, k] · w[k, q] + b[0, q]) 0`; the classifier's is the same sum and
  bias without the clamp, into 40 columns. These are what the kernel's row blocks tile and what the reference's
  matrix product, bias broadcast and relu compute.
-/
import proofs.«101499_j11751030522384_1_alg».proof.Proof.Gen.KernelIdeal
import Idealize.ShloMosaic.Lib.ValueIdx
import Idealize.ShloMosaic.PureOps.Ideal.Laws

noncomputable section

open scoped BigOperators

namespace Cert.KernelIdeal.Layer

open Cert.KernelIdeal Idealize.ShloMosaic

/-- Row `i 0`, column `k` of the activations. -/
abbrev zAt (i : S50000x512.Idx) (k : Fin 512) : S50000x512.Idx := fun a => match a with
  | ⟨0, _⟩ => ⟨(i 0).val, (i 0).isLt⟩
  | ⟨1, _⟩ => ⟨k.val, k.isLt⟩
/-- Row `k`, column `i 1` of a hidden layer's weights. -/
abbrev wAt (i : S50000x512.Idx) (k : Fin 512) : S512x512.Idx := fun a => match a with
  | ⟨0, _⟩ => ⟨k.val, k.isLt⟩
  | ⟨1, _⟩ => ⟨(i 1).val, (i 1).isLt⟩
/-- Column `i 1` of a hidden layer's bias row. -/
abbrev bAt (i : S50000x512.Idx) : S1x512.Idx := fun a => match a with
  | ⟨0, _⟩ => ⟨0, Nat.one_pos⟩
  | ⟨1, _⟩ => ⟨(i 1).val, (i 1).isLt⟩

/-- A hidden layer: `max (z · w + b) 0`, element by element. -/
def denseRelu (z : S50000x512.Idx → EReal) (w : S512x512.Idx → EReal) (b : S1x512.Idx → EReal) : S50000x512.Idx → EReal :=
  fun i => max ((∑ k : Fin 512, z (zAt i k) * w (wAt i k)) + b (bAt i)) (Ideal.ofBits .f32 0x00000000#32)

/-- Row `i 0`, column `k` of the activations, for an element of the 40-column result. -/
abbrev zAtOut (i : S50000x40.Idx) (k : Fin 512) : S50000x512.Idx := fun a => match a with
  | ⟨0, _⟩ => ⟨(i 0).val, (i 0).isLt⟩
  | ⟨1, _⟩ => ⟨k.val, k.isLt⟩
/-- Row `k`, column `i 1` of the classifier's weights. -/
abbrev wAtOut (i : S50000x40.Idx) (k : Fin 512) : S512x40.Idx := fun a => match a with
  | ⟨0, _⟩ => ⟨k.val, k.isLt⟩
  | ⟨1, _⟩ => ⟨(i 1).val, (i 1).isLt⟩
/-- Column `i 1` of the classifier's bias row. -/
abbrev bAtOut (i : S50000x40.Idx) : S1x40.Idx := fun a => match a with
  | ⟨0, _⟩ => ⟨0, Nat.one_pos⟩
  | ⟨1, _⟩ => ⟨(i 1).val, (i 1).isLt⟩

/-- The classifier layer: `z · w + b`, element by element. -/
def denseOut (z : S50000x512.Idx → EReal) (w : S512x40.Idx → EReal) (b : S1x40.Idx → EReal) : S50000x40.Idx → EReal :=
  fun i => (∑ k : Fin 512, z (zAtOut i k) * w (wAtOut i k)) + b (bAtOut i)

end Cert.KernelIdeal.Layer

end
-- ==== Proof.Network.lean ====
/-
  The whole network as one function of @main's eleven arguments, over the extended reals, and the two small facts by
  which a matrix product, a broadcast bias and a clamp written out at one element are recognised as a dense layer.

  A GIN layer is the dense layer of the neighbour aggregate: `relu ((h + Σ_{j → i} h_j) · W + b)`. The network is three
  of them on the same edge list followed by the classifier layer.
-/
import proofs.«101499_j11751030522384_1_alg».proof.Proof.Dense
import proofs.«101499_j11751030522384_1_alg».proof.Proof.HostFold
import Idealize.ShloMosaic.Lib.Pipeline.Value

noncomputable section

open scoped BigOperators

namespace Cert.KernelIdeal.Layer

open Cert.KernelIdeal Idealize.ShloMosaic

/-- One GIN layer: aggregate the neighbours' rows onto each node's own, then the dense layer with relu. -/
def ginLayer (h : (⟨S50000x512, .f32⟩ : BufTy).Contents (Elt Ideal)) (src dst : (⟨S400000, .i32⟩ : BufTy).Contents (Elt Ideal))
    (w : (⟨S512x512, .f32⟩ : BufTy).Contents (Elt Ideal)) (b : (⟨S512, .f32⟩ : BufTy).Contents (Elt Ideal)) : (⟨S50000x512, .f32⟩ : BufTy).Contents (Elt Ideal) :=
  denseRelu (aggregate h src dst) w (biasRow b)

/-- The network: three GIN layers on one edge list, then the classifier layer. -/
def network (a0 : (⟨S50000x512, .f32⟩ : BufTy).Contents (Elt Ideal)) (a1 a2 : (⟨S400000, .i32⟩ : BufTy).Contents (Elt Ideal))
    (a3 : (⟨S512x512, .f32⟩ : BufTy).Contents (Elt Ideal)) (a4 : (⟨S512, .f32⟩ : BufTy).Contents (Elt Ideal)) (a5 : (⟨S512x512, .f32⟩ : BufTy).Contents (Elt Ideal)) (a6 : (⟨S512, .f32⟩ : BufTy).Contents (Elt Ideal))
    (a7 : (⟨S512x512, .f32⟩ : BufTy).Contents (Elt Ideal)) (a8 : (⟨S512, .f32⟩ : BufTy).Contents (Elt Ideal)) (a9 : (⟨S512x40, .f32⟩ : BufTy).Contents (Elt Ideal)) (a10 : (⟨S40, .f32⟩ : BufTy).Contents (Elt Ideal)) : (⟨S50000x40, .f32⟩ : BufTy).Contents (Elt Ideal) :=
  denseOut (ginLayer (ginLayer (ginLayer a0 a1 a2 a3 a4) a1 a2 a5 a6) a1 a2 a7 a8) a9 (biasRowOut a10)

/-- The bias vector reshaped to a row, read at column `q` of the row, is the vector at `q`. -/
theorem biasRow_apply (b : (⟨S512, .f32⟩ : BufTy).Contents (Elt Ideal)) (j : S1x512.Idx) (q : S512.Idx) (hq : (q 0).val = (j 1).val) :
    biasRow b j = b q := by
  have h0 : (j 0).val = 0 := by have h : (j 0).val < 1 := (j 0).isLt; omega
  unfold biasRow
  refine shapeCast_apply b _ j q ?_
  rw [Shape.rowMajor_val_one, Shape.rowMajor_val_two, hq, h0]
  show (j 1).val = 0 * 512 + (j 1).val
  omega

theorem biasRowOut_apply (b : (⟨S40, .f32⟩ : BufTy).Contents (Elt Ideal)) (j : S1x40.Idx) (q : S40.Idx) (hq : (q 0).val = (j 1).val) :
    biasRowOut b j = b q := by
  have h0 : (j 0).val = 0 := by have h : (j 0).val < 1 := (j 0).isLt; omega
  unfold biasRowOut
  refine shapeCast_apply b _ j q ?_
  rw [Shape.rowMajor_val_one, Shape.rowMajor_val_two, hq, h0]
  show (j 1).val = 0 * 40 + (j 1).val
  omega

/-- A sum of products over row `i 0` of `z` and column `i 1` of `w`, plus the bias at `i 1`, clamped at zero, is the
    dense layer at `i` — however the operand indices and the bias index are spelt, as long as they are these. -/
theorem denseRelu_of (z : (⟨S50000x512, .f32⟩ : BufTy).Contents (Elt Ideal)) (w : (⟨S512x512, .f32⟩ : BufTy).Contents (Elt Ideal)) (b : (⟨S512, .f32⟩ : BufTy).Contents (Elt Ideal)) (i : S50000x512.Idx)
    (l : Fin 512 → S50000x512.Idx) (r : Fin 512 → S512x512.Idx) (q : S512.Idx)
    (hl : ∀ k, l k = zAt i k) (hr : ∀ k, r k = wAt i k) (hq : (q 0).val = (i 1).val) :
    max ((∑ k : Fin 512, z (l k) * w (r k)) + b q) (Ideal.ofBits .f32 0x00000000#32) = denseRelu z w (biasRow b) i := by
  unfold denseRelu
  rw [biasRow_apply b (bAt i) q hq, Finset.sum_congr rfl fun k _ => by rw [hl k, hr k]]

/-- The same for the classifier layer, which has no clamp. -/
theorem denseOut_of (z : (⟨S50000x512, .f32⟩ : BufTy).Contents (Elt Ideal)) (w : (⟨S512x40, .f32⟩ : BufTy).Contents (Elt Ideal)) (b : (⟨S40, .f32⟩ : BufTy).Contents (Elt Ideal)) (i : S50000x40.Idx)
    (l : Fin 512 → S50000x512.Idx) (r : Fin 512 → S512x40.Idx) (q : S40.Idx)
    (hl : ∀ k, l k = zAtOut i k) (hr : ∀ k, r k = wAtOut i k) (hq : (q 0).val = (i 1).val) :
    (∑ k : Fin 512, z (l k) * w (r k)) + b q = denseOut z w (biasRowOut b) i := by
  unfold denseOut
  rw [biasRowOut_apply b (bAtOut i) q hq, Finset.sum_congr rfl fun k _ => by rw [hl k, hr k]]

end Cert.KernelIdeal.Layer

end
-- ==== Proof.Payload.lean ====
/-
  One dense layer's kernel body, read at a single element of the block it stores, over the extended reals.

  Every hidden layer runs the same body on a block of 2000 rows: it loads the rows `x` (2000 × 512), the whole weight
  matrix `w` (512 × 512) and the bias as a row `b` (1 × 512), narrows `x` and `w` to bf16 (no change of value over
  the extended reals), multiplies them on the matrix unit into a zero accumulator, adds the bias row to every row and
  clamps at zero. At row `r` and column `q` of the block that is

      max (∑ k, x[r, k] · w[k, q] + b[0, q]) 0.

  The classifier layer's body is the same without the clamp, with a 512 × 40 weight matrix and a 1 × 40 bias row.
  The three hidden layers' payloads are one term, so one lemma serves all three.
-/
import proofs.«101499_j11751030522384_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Layer

open Cert.KernelIdeal Cert.KernelIdeal.Gen Idealize.ShloMosaic Idealize.ShloMosaic.ValueIdx

/-! ## Hidden layers: a 2000 × 512 block times the 512 × 512 weights -/

/-- Row `j 0`, column `k` of the block of rows: the left factor of the `k`-th product at output element `j`. -/
abbrev rowAt (j : S2000x512.Idx) (k : Fin 512) : S2000x512.Idx := fun a => match a with
  | ⟨0, _⟩ => ⟨(j 0).val, (j 0).isLt⟩
  | ⟨1, _⟩ => ⟨k.val, k.isLt⟩
/-- Row `k`, column `j 1` of the weights: the right factor of the `k`-th product at output element `j`. -/
abbrev colAt (j : S2000x512.Idx) (k : Fin 512) : S512x512.Idx := fun a => match a with
  | ⟨0, _⟩ => ⟨k.val, k.isLt⟩
  | ⟨1, _⟩ => ⟨(j 1).val, (j 1).isLt⟩
/-- Column `j 1` of the bias row. -/
abbrev biasAt (j : S2000x512.Idx) : S1x512.Idx := fun a => match a with
  | ⟨0, _⟩ => ⟨0, Nat.one_pos⟩
  | ⟨1, _⟩ => ⟨(j 1).val, (j 1).isLt⟩

theorem lhs_hidden_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_hidden_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_hidden_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_hidden_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The block product into a zero accumulator, at one element: the sum over the 512 shared coordinates. -/
theorem blockProduct_apply (x : FVec Ideal S2000x512 .bf16) (w : FVec Ideal S512x512 .bf16) (j : S2000x512.Idx) :
    matmul dot_S2000x512_S512x512_S2000x512_1_0_0_1_n_n none x w (constant S2000x512 .f32 0x00000000#32) j
      = ∑ k : Fin 512, x (rowAt j k) * w (colAt j k) := by
  simp only [matmul]
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx j ((contrEquiv1 dot_S2000x512_S512x512_S2000x512_1_0_0_1_n_n 512 rfl rfl).symm k) = rowAt j k := funext fun a => Fin.ext (by
    match a with
    | ⟨0, _⟩ => exact lhs_hidden_0 _ _
    | ⟨1, _⟩ => exact (lhs_hidden_1 _ _).trans hk)
  have er : dot_S2000x512_S512x512_S2000x512_1_0_0_1_n_n.rhsIdx j ((contrEquiv1 dot_S2000x512_S512x512_S2000x512_1_0_0_1_n_n 512 rfl rfl).symm k) = colAt j k := funext fun a => Fin.ext (by
    match a with
    | ⟨0, _⟩ => exact (rhs_hidden_0 _ _).trans hk
    | ⟨1, _⟩ => exact rhs_hidden_1 _ _)
  rw [el, er]

/-- The bias row spread over the block's rows, at one element. -/
theorem biasRows_apply (b : FVec Ideal S1x512 .f32) (j : S2000x512.Idx) :
    broadcastTo S2000x512 b broadcasts_S1x512_S2000x512 j = b (biasAt j) :=
  broadcastTo_apply b broadcasts_S1x512_S2000x512 j (biasAt j) (fun a => match a with
    | ⟨0, _⟩ => by show 0 = if (1 : Nat) = 1 then 0 else _; rw [if_pos rfl]
    | ⟨1, _⟩ => by show (j 1).val = if (512 : Nat) = 1 then 0 else (j 1).val; rw [if_neg (by decide)])

/-- A hidden layer's stored block at element `j`: the products summed, the bias added, clamped at zero. -/
theorem hidden0_apply (x : Vec Ideal S2000x512 .f32) (w : Vec Ideal S512x512 .f32) (b : Vec Ideal S1x512 .f32) (j : S2000x512.Idx) :
    k0_pay1 x w b j = max ((∑ k : Fin 512, x (rowAt j k) * w (colAt j k)) + b (biasAt j)) (Ideal.ofBits .f32 0x00000000#32) := by
  unfold k0_pay1
  show max ((matmul (F := Ideal) dot_S2000x512_S512x512_S2000x512_1_0_0_1_n_n none (truncf (F := Ideal) .bf16 (shapeCast S2000x512 x shapeCasts_S2000x512_S2000x512) bitsLt_bf16_f32) (truncf (F := Ideal) .bf16 w bitsLt_bf16_f32) (constant (F := Ideal) S2000x512 .f32 0x00000000#32) : FVec Ideal S2000x512 .f32) j
      + (broadcastTo S2000x512 (shapeCast S1x512 b shapeCasts_S1x512_S1x512) broadcasts_S1x512_S2000x512 : FVec Ideal S2000x512 .f32) j) (Ideal.ofBits .f32 0x00000000#32) = _
  rw [blockProduct_apply, biasRows_apply, shapeCast_self, shapeCast_self]
  rfl

/-- The second and third hidden layers' bodies are the first's, term for term, so they read the same at an element. -/
theorem hidden1_apply (x : Vec Ideal S2000x512 .f32) (w : Vec Ideal S512x512 .f32) (b : Vec Ideal S1x512 .f32) (j : S2000x512.Idx) :
    k1_pay1 x w b j = max ((∑ k : Fin 512, x (rowAt j k) * w (colAt j k)) + b (biasAt j)) (Ideal.ofBits .f32 0x00000000#32) :=
  hidden0_apply x w b j
theorem hidden2_apply (x : Vec Ideal S2000x512 .f32) (w : Vec Ideal S512x512 .f32) (b : Vec Ideal S1x512 .f32) (j : S2000x512.Idx) :
    k2_pay1 x w b j = max ((∑ k : Fin 512, x (rowAt j k) * w (colAt j k)) + b (biasAt j)) (Ideal.ofBits .f32 0x00000000#32) :=
  hidden0_apply x w b j

/-! ## The classifier layer: a 2000 × 512 block times the 512 × 40 weights, no clamp -/

/-- Row `j 0`, column `k` of the block of rows. -/
abbrev rowAtOut (j : S2000x40.Idx) (k : Fin 512) : S2000x512.Idx := fun a => match a with
  | ⟨0, _⟩ => ⟨(j 0).val, (j 0).isLt⟩
  | ⟨1, _⟩ => ⟨k.val, k.isLt⟩
/-- Row `k`, column `j 1` of the classifier's weights. -/
abbrev colAtOut (j : S2000x40.Idx) (k : Fin 512) : S512x40.Idx := fun a => match a with
  | ⟨0, _⟩ => ⟨k.val, k.isLt⟩
  | ⟨1, _⟩ => ⟨(j 1).val, (j 1).isLt⟩
/-- Column `j 1` of the classifier's bias row. -/
abbrev biasAtOut (j : S2000x40.Idx) : S1x40.Idx := fun a => match a with
  | ⟨0, _⟩ => ⟨0, Nat.one_pos⟩
  | ⟨1, _⟩ => ⟨(j 1).val, (j 1).isLt⟩

theorem lhs_out_0 (i : S2000x40.Idx) (q : dot_S2000x512_S512x40_S2000x40_1_0_0_1_n_n.contr.Idx) :
    (dot_S2000x512_S512x40_S2000x40_1_0_0_1_n_n.lhsIdx i q 0).val = (i 0).val := by
  unfold DotDims.lhsIdx
  rw [dif_neg (show ¬(0 : Fin S2000x512.rank) ∈ dot_S2000x512_S512x40_S2000x40_1_0_0_1_n_n.lhsBatch by decide), dif_pos (show (0 : Fin S2000x512.rank) ∈ dot_S2000x512_S512x40_S2000x40_1_0_0_1_n_n.lhsNonContracting by decide)]
  rfl
theorem lhs_out_1 (i : S2000x40.Idx) (q : dot_S2000x512_S512x40_S2000x40_1_0_0_1_n_n.contr.Idx) :
    (dot_S2000x512_S512x40_S2000x40_1_0_0_1_n_n.lhsIdx i q 1).val = (q ⟨0, by decide⟩).val :=
  dot_S2000x512_S512x40_S2000x40_1_0_0_1_n_n.lhsIdx_val_of_single rfl i q
theorem rhs_out_0 (i : S2000x40.Idx) (q : dot_S2000x512_S512x40_S2000x40_1_0_0_1_n_n.contr.Idx) :
    (dot_S2000x512_S512x40_S2000x40_1_0_0_1_n_n.rhsIdx i q 0).val = (q ⟨0, by decide⟩).val :=
  dot_S2000x512_S512x40_S2000x40_1_0_0_1_n_n.rhsIdx_val_of_single rfl i q
theorem rhs_out_1 (i : S2000x40.Idx) (q : dot_S2000x512_S512x40_S2000x40_1_0_0_1_n_n.contr.Idx) :
    (dot_S2000x512_S512x40_S2000x40_1_0_0_1_n_n.rhsIdx i q 1).val = (i 1).val := by
  unfold DotDims.rhsIdx
  rw [dif_neg (show ¬(1 : Fin S512x40.rank) ∈ dot_S2000x512_S512x40_S2000x40_1_0_0_1_n_n.rhsBatch by decide), dif_pos (show (1 : Fin S512x40.rank) ∈ dot_S2000x512_S512x40_S2000x40_1_0_0_1_n_n.rhsNonContracting by decide)]
  rfl

/-- The classifier's block product into a zero accumulator, at one element. -/
theorem blockProductOut_apply (x : FVec Ideal S2000x512 .bf16) (w : FVec Ideal S512x40 .bf16) (j : S2000x40.Idx) :
    matmul dot_S2000x512_S512x40_S2000x40_1_0_0_1_n_n none x w (constant S2000x40 .f32 0x00000000#32) j
      = ∑ k : Fin 512, x (rowAtOut j k) * w (colAtOut j k) := by
  simp only [matmul]
  rw [Ideal.matmul_constant_zero_apply, ← Equiv.sum_comp (contrEquiv1 dot_S2000x512_S512x40_S2000x40_1_0_0_1_n_n 512 rfl rfl).symm]
  refine Finset.sum_congr rfl fun k _ => ?_
  have hk := contrEquiv1_symm_val dot_S2000x512_S512x40_S2000x40_1_0_0_1_n_n 512 rfl rfl k
  have el : dot_S2000x512_S512x40_S2000x40_1_0_0_1_n_n.lhsIdx j ((contrEquiv1 dot_S2000x512_S512x40_S2000x40_1_0_0_1_n_n 512 rfl rfl).symm k) = rowAtOut j k := funext fun a => Fin.ext (by
    match a with
    | ⟨0, _⟩ => exact lhs_out_0 _ _
    | ⟨1, _⟩ => exact (lhs_out_1 _ _).trans hk)
  have er : dot_S2000x512_S512x40_S2000x40_1_0_0_1_n_n.rhsIdx j ((contrEquiv1 dot_S2000x512_S512x40_S2000x40_1_0_0_1_n_n 512 rfl rfl).symm k) = colAtOut j k := funext fun a => Fin.ext (by
    match a with
    | ⟨0, _⟩ => exact (rhs_out_0 _ _).trans hk
    | ⟨1, _⟩ => exact rhs_out_1 _ _)
  rw [el, er]

/-- The classifier's bias row spread over the block's rows, at one element. -/
theorem biasRowsOut_apply (b : FVec Ideal S1x40 .f32) (j : S2000x40.Idx) :
    broadcastTo S2000x40 b broadcasts_S1x40_S2000x40 j = b (biasAtOut j) :=
  broadcastTo_apply b broadcasts_S1x40_S2000x40 j (biasAtOut j) (fun a => match a with
    | ⟨0, _⟩ => by show 0 = if (1 : Nat) = 1 then 0 else _; rw [if_pos rfl]
    | ⟨1, _⟩ => by show (j 1).val = if (40 : Nat) = 1 then 0 else (j 1).val; rw [if_neg (by decide)])

/-- The classifier's stored block at element `j`: the products summed and the bias added. -/
theorem out_apply (x : Vec Ideal S2000x512 .f32) (w : Vec Ideal S512x40 .f32) (b : Vec Ideal S1x40 .f32) (j : S2000x40.Idx) :
    k3_pay1 x w b j = (∑ k : Fin 512, x (rowAtOut j k) * w (colAtOut j k)) + b (biasAtOut j) := by
  unfold k3_pay1
  show (matmul (F := Ideal) dot_S2000x512_S512x40_S2000x40_1_0_0_1_n_n none (truncf (F := Ideal) .bf16 (shapeCast S2000x512 x shapeCasts_S2000x512_S2000x512) bitsLt_bf16_f32) (truncf (F := Ideal) .bf16 w bitsLt_bf16_f32) (constant (F := Ideal) S2000x40 .f32 0x00000000#32) : FVec Ideal S2000x40 .f32) j
      + (broadcastTo S2000x40 (shapeCast S1x40 b shapeCasts_S1x40_S1x40) broadcasts_S1x40_S2000x40 : FVec Ideal S2000x40 .f32) j = _
  rw [blockProductOut_apply, biasRowsOut_apply, shapeCast_self, shapeCast_self]
  rfl

end Cert.KernelIdeal.Layer

end
-- ==== Proof.Region0.lean ====
/-
  Region 0 (a hidden layer's launch): after its 25 grid points the output array holds the dense layer of the arrays
  the region was entered with.

  Point `t` of the grid loads rows `2000 t … 2000 t + 1999` of the activations, the whole weight matrix and the whole
  bias row, and writes back rows `2000 t … 2000 t + 1999` of the result. Each written block is that block of
  `denseRelu z w b` (the body's value at an element, with each loaded block read back where it sits in its array),
  and the 25 blocks cover all 50000 rows (row `r` lies in block `r / 2000`), so the whole array is `denseRelu z w b`.
-/
import proofs.«101499_j11751030522384_1_alg».proof.Proof.Gen.KernelIdeal.Frame
import proofs.«101499_j11751030522384_1_alg».proof.Proof.Payload
import proofs.«101499_j11751030522384_1_alg».proof.Proof.Dense
import Idealize.ShloMosaic.Lib.Pipeline.Value

set_option maxRecDepth 16384

noncomputable section

open scoped BigOperators

namespace Cert.KernelIdeal.Layer.R0

open Cert.KernelIdeal Cert.KernelIdeal.Gen Cert.KernelIdeal.Layer
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three blocks point `t` loads, at their literal types. -/
abbrev xblk (c : Dev nD) (t : Fin cfg0.N) : Vec Ideal S2000x512 .f32 := iblk0 V c 0 t
abbrev wblk (c : Dev nD) (t : Fin cfg0.N) : Vec Ideal S512x512 .f32 := iblk0 V c 1 t
abbrev bblk (c : Dev nD) (t : Fin cfg0.N) : Vec Ideal S1x512 .f32 := iblk0 V c 2 t
/-- The three arrays the region reads, at their literal types. -/
abbrev zarr (c : Dev nD) : S50000x512.Idx → EReal := V c main_v10
abbrev warr (c : Dev nD) : S512x512.Idx → EReal := V c main_arg3
abbrev barr (c : Dev nD) : S1x512.Idx → EReal := V c main_v11

/-- The block indices of the four windows at grid point `t`: the activations and the result move down one block of
    rows per point; the weights and the bias row stay at their one block. -/
theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point `t` is rows `2000 t …` of the array the region found. -/
theorem rows_apply (c : Dev nD) (t : Fin cfg0.N) (y : S2000x512.Idx) (i : S50000x512.Idx)
    (h0 : (i 0).val = 2000 * t.val + (y 0).val) (h1 : (i 1).val = (y 1).val) :
    xblk V c t y = zarr V c i := by
  obtain ⟨e0, e1, -⟩ := blockIdx t
  unfold xblk zarr iblk0
  rw [View.read_apply]
  show V c main_v10 _ = V c main_v10 _
  congr 1
  funext a
  apply Fin.ext
  match a with
  | ⟨0, _⟩ => show win0_0.index t 0 * 2000 + 1 * (y 0).val = (i 0).val; rw [e0, h0]; omega
  | ⟨1, _⟩ => show win0_0.index t 1 * 512 + 1 * (y 1).val = (i 1).val; rw [e1, h1]; omega

/-- The weights' block at every point is the whole weight matrix. -/
theorem weights_apply (c : Dev nD) (t : Fin cfg0.N) (y : S512x512.Idx) (i : S512x512.Idx)
    (h0 : (i 0).val = (y 0).val) (h1 : (i 1).val = (y 1).val) :
    wblk V c t y = warr V c i := by
  obtain ⟨-, -, e0, e1, -⟩ := blockIdx t
  unfold wblk warr iblk0
  rw [View.read_apply]
  show V c main_arg3 _ = V c main_arg3 _
  congr 1
  funext a
  apply Fin.ext
  match a with
  | ⟨0, _⟩ => show win0_1.index t 0 * 512 + 1 * (y 0).val = (i 0).val; rw [e0, h0]; omega
  | ⟨1, _⟩ => show win0_1.index t 1 * 512 + 1 * (y 1).val = (i 1).val; rw [e1, h1]; omega

/-- The bias window's block at every point is the whole bias row. -/
theorem bias_apply (c : Dev nD) (t : Fin cfg0.N) (y : S1x512.Idx) (i : S1x512.Idx)
    (h0 : (i 0).val = (y 0).val) (h1 : (i 1).val = (y 1).val) :
    bblk V c t y = barr V c i := by
  obtain ⟨-, -, -, -, e0, e1, -⟩ := blockIdx t
  unfold bblk barr iblk0
  rw [View.read_apply]
  show V c main_v11 _ = V c main_v11 _
  congr 1
  funext a
  apply Fin.ext
  match a with
  | ⟨0, _⟩ => show win0_2.index t 0 * 1 + 1 * (y 0).val = (i 0).val; rw [e0, h0]; omega
  | ⟨1, _⟩ => show win0_2.index t 1 * 512 + 1 * (y 1).val = (i 1).val; rw [e1, h1]; omega

/-- What point `t` writes back is block `t` of the dense layer of the arrays the region found. -/
theorem flushed_eq (c : Dev nD) (t : Fin cfg0.N) :
    (dat0 V c).flushed 3 t = ((cfg0.win 3).blk t).view.read (Elt Ideal) (denseRelu (zarr V c) (warr V c) (barr V c)) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x512) hz, View.ld_unit_zero (S := S1x512) hz]
  obtain ⟨-, -, -, -, -, -, e0, e1⟩ := blockIdx t
  funext j
  show k0_pay1 (xblk V c t) (wblk V c t) (bblk V c t) j
    = denseRelu (zarr V c) (warr V c) (barr V c) (((cfg0.win 3).blk t).view.emb j)
  refine (hidden0_apply (xblk V c t) (wblk V c t) (bblk V c t) j).trans ?_
  unfold denseRelu
  have hi0 : ((((cfg0.win 3).blk t).view.emb j) 0).val = 2000 * t.val + (j 0).val := by
    show win0_3.index t 0 * 2000 + 1 * (j 0).val = _; rw [e0]; omega
  have hi1 : ((((cfg0.win 3).blk t).view.emb j) 1).val = (j 1).val := by
    show win0_3.index t 1 * 512 + 1 * (j 1).val = _; rw [e1]; omega
  have e : ∀ k : Fin 512, xblk V c t (rowAt j k) * wblk V c t (colAt j k)
      = zarr V c (zAt (((cfg0.win 3).blk t).view.emb j) k) * warr V c (wAt (((cfg0.win 3).blk t).view.emb j) k) := fun k => by
    rw [rows_apply V c t (rowAt j k) (zAt (((cfg0.win 3).blk t).view.emb j) k) hi0 rfl,
      weights_apply V c t (colAt j k) (wAt (((cfg0.win 3).blk t).view.emb j) k) rfl hi1]
  rw [Finset.sum_congr rfl fun k _ => e k, bias_apply V c t (biasAt j) (bAt (((cfg0.win 3).blk t).view.emb j)) rfl hi1]

/-- An index of the result array is in point `t`'s block iff each coordinate is in the block's range. -/
theorem mem_blk (t : Fin cfg0.N) (i : S50000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v12).slice (win0_3.rect t)).set ↔ _
  rw [View.set_slice_whole, Rect.mem_set_unit]
  exact Iff.rfl

/-- Every element of the result array is in some point's block: row `r` is written at point `r / 2000`. -/
theorem cover (i : S50000x512.Idx) : ∃ t : Fin cfg0.N, (cfg0.win 3).flush t = true ∧ i ∈ ((cfg0.win 3).blk t).view.set := by
  have hi0 : (i 0).val < 50000 := (i 0).isLt
  have hi1 : (i 1).val < 512 := (i 1).isLt
  have hN : cfg0.N = 25 := N_0
  have hlt : (i 0).val / 2000 < cfg0.N := by rw [hN]; omega
  obtain ⟨-, -, -, -, -, -, e0, e1⟩ := blockIdx ⟨(i 0).val / 2000, hlt⟩
  refine ⟨⟨(i 0).val / 2000, hlt⟩, flush0_3 _, ?_⟩
  rw [mem_blk]
  intro a
  match a with
  | ⟨0, _⟩ =>
    show win0_3.index ⟨(i 0).val / 2000, hlt⟩ 0 * 2000 ≤ (i 0).val ∧ (i 0).val < win0_3.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win0_3.index ⟨(i 0).val / 2000, hlt⟩ 1 * 512 ≤ (i 1).val ∧ (i 1).val < win0_3.index ⟨(i 0).val / 2000, hlt⟩ 1 * 512 + 512
    rw [e1]; omega

/-- The region's output array after its last point: the dense layer of the arrays it was entered with. -/
theorem result (c : Dev nD) :
    (dat0 V c).arrAt 3 cfg0.N = denseRelu (zarr V c) (warr V c) (barr V c) :=
  (dat0 V c).arrAt_eq_of_cover 3 _ (fun t _ => flushed_eq V c t) cover

end Cert.KernelIdeal.Layer.R0

end
-- ==== Proof.Region1.lean ====
/-
  Region 1 (a hidden layer's launch): after its 25 grid points the output array holds the dense layer of the arrays
  the region was entered with.

  Point `t` of the grid loads rows `2000 t … 2000 t + 1999` of the activations, the whole weight matrix and the whole
  bias row, and writes back rows `2000 t … 2000 t + 1999` of the result. Each written block is that block of
  `denseRelu z w b` (the body's value at an element, with each loaded block read back where it sits in its array),
  and the 25 blocks cover all 50000 rows (row `r` lies in block `r / 2000`), so the whole array is `denseRelu z w b`.
-/
import proofs.«101499_j11751030522384_1_alg».proof.Proof.Gen.KernelIdeal.Frame
import proofs.«101499_j11751030522384_1_alg».proof.Proof.Payload
import proofs.«101499_j11751030522384_1_alg».proof.Proof.Dense
import Idealize.ShloMosaic.Lib.Pipeline.Value

set_option maxRecDepth 16384

noncomputable section

open scoped BigOperators

namespace Cert.KernelIdeal.Layer.R1

open Cert.KernelIdeal Cert.KernelIdeal.Gen Cert.KernelIdeal.Layer
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three blocks point `t` loads, at their literal types. -/
abbrev xblk (c : Dev nD) (t : Fin cfg1.N) : Vec Ideal S2000x512 .f32 := iblk1 V c 0 t
abbrev wblk (c : Dev nD) (t : Fin cfg1.N) : Vec Ideal S512x512 .f32 := iblk1 V c 1 t
abbrev bblk (c : Dev nD) (t : Fin cfg1.N) : Vec Ideal S1x512 .f32 := iblk1 V c 2 t
/-- The three arrays the region reads, at their literal types. -/
abbrev zarr (c : Dev nD) : S50000x512.Idx → EReal := V c main_v23
abbrev warr (c : Dev nD) : S512x512.Idx → EReal := V c main_arg5
abbrev barr (c : Dev nD) : S1x512.Idx → EReal := V c main_v24

/-- The block indices of the four windows at grid point `t`: the activations and the result move down one block of
    rows per point; the weights and the bias row stay at their one block. -/
theorem blockIdx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The activations' block at point `t` is rows `2000 t …` of the array the region found. -/
theorem rows_apply (c : Dev nD) (t : Fin cfg1.N) (y : S2000x512.Idx) (i : S50000x512.Idx)
    (h0 : (i 0).val = 2000 * t.val + (y 0).val) (h1 : (i 1).val = (y 1).val) :
    xblk V c t y = zarr V c i := by
  obtain ⟨e0, e1, -⟩ := blockIdx t
  unfold xblk zarr iblk1
  rw [View.read_apply]
  show V c main_v23 _ = V c main_v23 _
  congr 1
  funext a
  apply Fin.ext
  match a with
  | ⟨0, _⟩ => show win1_0.index t 0 * 2000 + 1 * (y 0).val = (i 0).val; rw [e0, h0]; omega
  | ⟨1, _⟩ => show win1_0.index t 1 * 512 + 1 * (y 1).val = (i 1).val; rw [e1, h1]; omega

/-- The weights' block at every point is the whole weight matrix. -/
theorem weights_apply (c : Dev nD) (t : Fin cfg1.N) (y : S512x512.Idx) (i : S512x512.Idx)
    (h0 : (i 0).val = (y 0).val) (h1 : (i 1).val = (y 1).val) :
    wblk V c t y = warr V c i := by
  obtain ⟨-, -, e0, e1, -⟩ := blockIdx t
  unfold wblk warr iblk1
  rw [View.read_apply]
  show V c main_arg5 _ = V c main_arg5 _
  congr 1
  funext a
  apply Fin.ext
  match a with
  | ⟨0, _⟩ => show win1_1.index t 0 * 512 + 1 * (y 0).val = (i 0).val; rw [e0, h0]; omega
  | ⟨1, _⟩ => show win1_1.index t 1 * 512 + 1 * (y 1).val = (i 1).val; rw [e1, h1]; omega

/-- The bias window's block at every point is the whole bias row. -/
theorem bias_apply (c : Dev nD) (t : Fin cfg1.N) (y : S1x512.Idx) (i : S1x512.Idx)
    (h0 : (i 0).val = (y 0).val) (h1 : (i 1).val = (y 1).val) :
    bblk V c t y = barr V c i := by
  obtain ⟨-, -, -, -, e0, e1, -⟩ := blockIdx t
  unfold bblk barr iblk1
  rw [View.read_apply]
  show V c main_v24 _ = V c main_v24 _
  congr 1
  funext a
  apply Fin.ext
  match a with
  | ⟨0, _⟩ => show win1_2.index t 0 * 1 + 1 * (y 0).val = (i 0).val; rw [e0, h0]; omega
  | ⟨1, _⟩ => show win1_2.index t 1 * 512 + 1 * (y 1).val = (i 1).val; rw [e1, h1]; omega

/-- What point `t` writes back is block `t` of the dense layer of the arrays the region found. -/
theorem flushed_eq (c : Dev nD) (t : Fin cfg1.N) :
    (dat1 V c).flushed 3 t = ((cfg1.win 3).blk t).view.read (Elt Ideal) (denseRelu (zarr V c) (warr V c) (barr V c)) := by
  show (cfg1.win 3).cut (grid1.coords t) ((dat1 V c).after 3 t) = _
  rw [after1_3]
  unfold out1_3
  rw [View.canon_unit_zero hz]
  simp only [View.ld_unit_zero (S := S2000x512) hz, View.ld_unit_zero (S := S512x512) hz, View.ld_unit_zero (S := S1x512) hz]
  obtain ⟨-, -, -, -, -, -, e0, e1⟩ := blockIdx t
  funext j
  show k1_pay1 (xblk V c t) (wblk V c t) (bblk V c t) j
    = denseRelu (zarr V c) (warr V c) (barr V c) (((cfg1.win 3).blk t).view.emb j)
  refine (hidden1_apply (xblk V c t) (wblk V c t) (bblk V c t) j).trans ?_
  unfold denseRelu
  have hi0 : ((((cfg1.win 3).blk t).view.emb j) 0).val = 2000 * t.val + (j 0).val := by
    show win1_3.index t 0 * 2000 + 1 * (j 0).val = _; rw [e0]; omega
  have hi1 : ((((cfg1.win 3).blk t).view.emb j) 1).val = (j 1).val := by
    show win1_3.index t 1 * 512 + 1 * (j 1).val = _; rw [e1]; omega
  have e : ∀ k : Fin 512, xblk V c t (rowAt j k) * wblk V c t (colAt j k)
      = zarr V c (zAt (((cfg1.win 3).blk t).view.emb j) k) * warr V c (wAt (((cfg1.win 3).blk t).view.emb j) k) := fun k => by
    rw [rows_apply V c t (rowAt j k) (zAt (((cfg1.win 3).blk t).view.emb j) k) hi0 rfl,
      weights_apply V c t (colAt j k) (wAt (((cfg1.win 3).blk t).view.emb j) k) rfl hi1]
  rw [Finset.sum_congr rfl fun k _ => e k, bias_apply V c t (biasAt j) (bAt (((cfg1.win 3).blk t).view.emb j)) rfl hi1]

/-- An index of the result array is in point `t`'s block iff each coordinate is in the block's range. -/
theorem mem_blk (t : Fin cfg1.N) (i : S50000x512.Idx) :
    i ∈ ((cfg1.win 3).blk t).view.set ↔ ∀ a : Fin 2, win1_3.index t a * S2000x512.size a ≤ (i a).val ∧ (i a).val < win1_3.index t a * S2000x512.size a + S2000x512.size a := by
  show i ∈ ((View.whole main_v25).slice (win1_3.rect t)).set ↔ _
  rw [View.set_slice_whole, Rect.mem_set_unit]
  exact Iff.rfl

/-- Every element of the result array is in some point's block: row `r` is written at point `r / 2000`. -/
theorem cover (i : S50000x512.Idx) : ∃ t : Fin cfg1.N, (cfg1.win 3).flush t = true ∧ i ∈ ((cfg1.win 3).blk t).view.set := by
  have hi0 : (i 0).val < 50000 := (i 0).isLt
  have hi1 : (i 1).val < 512 := (i 1).isLt
  have hN : cfg1.N = 25 := N_1
  have hlt : (i 0).val / 2000 < cfg1.N := by rw [hN]; omega
  obtain ⟨-, -, -, -, -, -, e0, e1⟩ := blockIdx ⟨(i 0).val / 2000, hlt⟩
  refine ⟨⟨(i 0).val / 2000, hlt⟩, flush1_3 _, ?_⟩
  rw [mem_blk]
  intro a
  match a with
  | ⟨0, _⟩ =>
    show win1_3.index ⟨(i 0).val / 2000, hlt⟩ 0 * 2000 ≤ (i 0).val ∧ (i 0).val < win1_3.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win1_3.index ⟨(i 0).val / 2000, hlt⟩ 1 * 512 ≤ (i 1).val ∧ (i 1).val < win1_3.index ⟨(i 0).val / 2000, hlt⟩ 1 * 512 + 512
    rw [e1]; omega

/-- The region's output array after its last point: the dense layer of the arrays it was entered with. -/
theorem result (c : Dev nD) :
    (dat1 V c).arrAt 3 cfg1.N = denseRelu (zarr V c) (warr V c) (barr V c) :=
  (dat1 V c).arrAt_eq_of_cover 3 _ (fun t _ => flushed_eq V c t) cover

end Cert.KernelIdeal.Layer.R1

end
-- ==== Proof.Region2.lean ====
/-
  Region 2 (a hidden layer's launch): after its 25 grid points the output array holds the dense layer of the arrays
  the region was entered with.

  Point `t` of the grid loads rows `2000 t … 2000 t + 1999` of the activations, the whole weight matrix and the whole
  bias row, and writes back rows `2000 t … 2000 t + 1999` of the result. Each written block is that block of
  `denseRelu z w b` (the body's value at an element, with each loaded block read back where it sits in its array),
  and the 25 blocks cover all 50000 rows (row `r` lies in block `r / 2000`), so the whole array is `denseRelu z w b`.
-/
import proofs.«101499_j11751030522384_1_alg».proof.Proof.Gen.KernelIdeal.Frame
import proofs.«101499_j11751030522384_1_alg».proof.Proof.Payload
import proofs.«101499_j11751030522384_1_alg».proof.Proof.Dense
import Idealize.ShloMosaic.Lib.Pipeline.Value

set_option maxRecDepth 16384

noncomputable section

open scoped BigOperators

namespace Cert.KernelIdeal.Layer.R2

open Cert.KernelIdeal Cert.KernelIdeal.Gen Cert.KernelIdeal.Layer
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three blocks point `t` loads, at their literal types. -/
abbrev xblk (c : Dev nD) (t : Fin cfg2.N) : Vec Ideal S2000x512 .f32 := iblk2 V c 0 t
abbrev wblk (c : Dev nD) (t : Fin cfg2.N) : Vec Ideal S512x512 .f32 := iblk2 V c 1 t
abbrev bblk (c : Dev nD) (t : Fin cfg2.N) : Vec Ideal S1x512 .f32 := iblk2 V c 2 t
/-- The three arrays the region reads, at their literal types. -/
abbrev zarr (c : Dev nD) : S50000x512.Idx → EReal := V c main_v36
abbrev warr (c : Dev nD) : S512x512.Idx → EReal := V c main_arg7
abbrev barr (c : Dev nD) : S1x512.Idx → EReal := V c main_v37

/-- The block indices of the four windows at grid point `t`: the activations and the result move down one block of
    rows per point; the weights and the bias row stay at their one block. -/
theorem blockIdx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The activations' block at point `t` is rows `2000 t …` of the array the region found. -/
theorem rows_apply (c : Dev nD) (t : Fin cfg2.N) (y : S2000x512.Idx) (i : S50000x512.Idx)
    (h0 : (i 0).val = 2000 * t.val + (y 0).val) (h1 : (i 1).val = (y 1).val) :
    xblk V c t y = zarr V c i := by
  obtain ⟨e0, e1, -⟩ := blockIdx t
  unfold xblk zarr iblk2
  rw [View.read_apply]
  show V c main_v36 _ = V c main_v36 _
  congr 1
  funext a
  apply Fin.ext
  match a with
  | ⟨0, _⟩ => show win2_0.index t 0 * 2000 + 1 * (y 0).val = (i 0).val; rw [e0, h0]; omega
  | ⟨1, _⟩ => show win2_0.index t 1 * 512 + 1 * (y 1).val = (i 1).val; rw [e1, h1]; omega

/-- The weights' block at every point is the whole weight matrix. -/
theorem weights_apply (c : Dev nD) (t : Fin cfg2.N) (y : S512x512.Idx) (i : S512x512.Idx)
    (h0 : (i 0).val = (y 0).val) (h1 : (i 1).val = (y 1).val) :
    wblk V c t y = warr V c i := by
  obtain ⟨-, -, e0, e1, -⟩ := blockIdx t
  unfold wblk warr iblk2
  rw [View.read_apply]
  show V c main_arg7 _ = V c main_arg7 _
  congr 1
  funext a
  apply Fin.ext
  match a with
  | ⟨0, _⟩ => show win2_1.index t 0 * 512 + 1 * (y 0).val = (i 0).val; rw [e0, h0]; omega
  | ⟨1, _⟩ => show win2_1.index t 1 * 512 + 1 * (y 1).val = (i 1).val; rw [e1, h1]; omega

/-- The bias window's block at every point is the whole bias row. -/
theorem bias_apply (c : Dev nD) (t : Fin cfg2.N) (y : S1x512.Idx) (i : S1x512.Idx)
    (h0 : (i 0).val = (y 0).val) (h1 : (i 1).val = (y 1).val) :
    bblk V c t y = barr V c i := by
  obtain ⟨-, -, -, -, e0, e1, -⟩ := blockIdx t
  unfold bblk barr iblk2
  rw [View.read_apply]
  show V c main_v37 _ = V c main_v37 _
  congr 1
  funext a
  apply Fin.ext
  match a with
  | ⟨0, _⟩ => show win2_2.index t 0 * 1 + 1 * (y 0).val = (i 0).val; rw [e0, h0]; omega
  | ⟨1, _⟩ => show win2_2.index t 1 * 512 + 1 * (y 1).val = (i 1).val; rw [e1, h1]; omega

/-- What point `t` writes back is block `t` of the dense layer of the arrays the region found. -/
theorem flushed_eq (c : Dev nD) (t : Fin cfg2.N) :
    (dat2 V c).flushed 3 t = ((cfg2.win 3).blk t).view.read (Elt Ideal) (denseRelu (zarr V c) (warr V c) (barr V c)) := by
  show (cfg2.win 3).cut (grid2.coords t) ((dat2 V c).after 3 t) = _
  rw [after2_3]
  unfold out2_3
  rw [View.canon_unit_zero hz]
  simp only [View.ld_unit_zero (S := S2000x512) hz, View.ld_unit_zero (S := S512x512) hz, View.ld_unit_zero (S := S1x512) hz]
  obtain ⟨-, -, -, -, -, -, e0, e1⟩ := blockIdx t
  funext j
  show k2_pay1 (xblk V c t) (wblk V c t) (bblk V c t) j
    = denseRelu (zarr V c) (warr V c) (barr V c) (((cfg2.win 3).blk t).view.emb j)
  refine (hidden2_apply (xblk V c t) (wblk V c t) (bblk V c t) j).trans ?_
  unfold denseRelu
  have hi0 : ((((cfg2.win 3).blk t).view.emb j) 0).val = 2000 * t.val + (j 0).val := by
    show win2_3.index t 0 * 2000 + 1 * (j 0).val = _; rw [e0]; omega
  have hi1 : ((((cfg2.win 3).blk t).view.emb j) 1).val = (j 1).val := by
    show win2_3.index t 1 * 512 + 1 * (j 1).val = _; rw [e1]; omega
  have e : ∀ k : Fin 512, xblk V c t (rowAt j k) * wblk V c t (colAt j k)
      = zarr V c (zAt (((cfg2.win 3).blk t).view.emb j) k) * warr V c (wAt (((cfg2.win 3).blk t).view.emb j) k) := fun k => by
    rw [rows_apply V c t (rowAt j k) (zAt (((cfg2.win 3).blk t).view.emb j) k) hi0 rfl,
      weights_apply V c t (colAt j k) (wAt (((cfg2.win 3).blk t).view.emb j) k) rfl hi1]
  rw [Finset.sum_congr rfl fun k _ => e k, bias_apply V c t (biasAt j) (bAt (((cfg2.win 3).blk t).view.emb j)) rfl hi1]

/-- An index of the result array is in point `t`'s block iff each coordinate is in the block's range. -/
theorem mem_blk (t : Fin cfg2.N) (i : S50000x512.Idx) :
    i ∈ ((cfg2.win 3).blk t).view.set ↔ ∀ a : Fin 2, win2_3.index t a * S2000x512.size a ≤ (i a).val ∧ (i a).val < win2_3.index t a * S2000x512.size a + S2000x512.size a := by
  show i ∈ ((View.whole main_v38).slice (win2_3.rect t)).set ↔ _
  rw [View.set_slice_whole, Rect.mem_set_unit]
  exact Iff.rfl

/-- Every element of the result array is in some point's block: row `r` is written at point `r / 2000`. -/
theorem cover (i : S50000x512.Idx) : ∃ t : Fin cfg2.N, (cfg2.win 3).flush t = true ∧ i ∈ ((cfg2.win 3).blk t).view.set := by
  have hi0 : (i 0).val < 50000 := (i 0).isLt
  have hi1 : (i 1).val < 512 := (i 1).isLt
  have hN : cfg2.N = 25 := N_2
  have hlt : (i 0).val / 2000 < cfg2.N := by rw [hN]; omega
  obtain ⟨-, -, -, -, -, -, e0, e1⟩ := blockIdx ⟨(i 0).val / 2000, hlt⟩
  refine ⟨⟨(i 0).val / 2000, hlt⟩, flush2_3 _, ?_⟩
  rw [mem_blk]
  intro a
  match a with
  | ⟨0, _⟩ =>
    show win2_3.index ⟨(i 0).val / 2000, hlt⟩ 0 * 2000 ≤ (i 0).val ∧ (i 0).val < win2_3.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win2_3.index ⟨(i 0).val / 2000, hlt⟩ 1 * 512 ≤ (i 1).val ∧ (i 1).val < win2_3.index ⟨(i 0).val / 2000, hlt⟩ 1 * 512 + 512
    rw [e1]; omega

/-- The region's output array after its last point: the dense layer of the arrays it was entered with. -/
theorem result (c : Dev nD) :
    (dat2 V c).arrAt 3 cfg2.N = denseRelu (zarr V c) (warr V c) (barr V c) :=
  (dat2 V c).arrAt_eq_of_cover 3 _ (fun t _ => flushed_eq V c t) cover

end Cert.KernelIdeal.Layer.R2

end
-- ==== Proof.Region3.lean ====
/-
  Region 3 (the classifier's launch): after its 25 grid points the output array holds the classifier layer of the
  arrays the region was entered with.

  Point `t` of the grid loads rows `2000 t … 2000 t + 1999` of the last hidden layer's activations, the whole 512 × 40
  weight matrix and the whole bias row, and writes back rows `2000 t … 2000 t + 1999` of the 50000 × 40 result. Each
  written block is that block of `denseOut z w b`, and the 25 blocks cover all 50000 rows, so the whole array is
  `denseOut z w b`.
-/
import proofs.«101499_j11751030522384_1_alg».proof.Proof.Gen.KernelIdeal.Frame
import proofs.«101499_j11751030522384_1_alg».proof.Proof.Payload
import proofs.«101499_j11751030522384_1_alg».proof.Proof.Dense
import Idealize.ShloMosaic.Lib.Pipeline.Value

set_option maxRecDepth 16384

noncomputable section

open scoped BigOperators

namespace Cert.KernelIdeal.Layer.R3

open Cert.KernelIdeal Cert.KernelIdeal.Gen Cert.KernelIdeal.Layer
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three blocks point `t` loads, at their literal types. -/
abbrev xblk (c : Dev nD) (t : Fin cfg3.N) : Vec Ideal S2000x512 .f32 := iblk3 V c 0 t
abbrev wblk (c : Dev nD) (t : Fin cfg3.N) : Vec Ideal S512x40 .f32 := iblk3 V c 1 t
abbrev bblk (c : Dev nD) (t : Fin cfg3.N) : Vec Ideal S1x40 .f32 := iblk3 V c 2 t
/-- The three arrays the region reads, at their literal types. -/
abbrev zarr (c : Dev nD) : S50000x512.Idx → EReal := V c main_v38
abbrev warr (c : Dev nD) : S512x40.Idx → EReal := V c main_arg9
abbrev barr (c : Dev nD) : S1x40.Idx → EReal := V c main_v39

/-- The block indices of the four windows at grid point `t`: the activations and the result move down one block of
    rows per point; the weights and the bias row stay at their one block. -/
theorem blockIdx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The activations' block at point `t` is rows `2000 t …` of the array the region found. -/
theorem rows_apply (c : Dev nD) (t : Fin cfg3.N) (y : S2000x512.Idx) (i : S50000x512.Idx)
    (h0 : (i 0).val = 2000 * t.val + (y 0).val) (h1 : (i 1).val = (y 1).val) :
    xblk V c t y = zarr V c i := by
  obtain ⟨e0, e1, -⟩ := blockIdx t
  unfold xblk zarr iblk3
  rw [View.read_apply]
  show V c main_v38 _ = V c main_v38 _
  congr 1
  funext a
  apply Fin.ext
  match a with
  | ⟨0, _⟩ => show win3_0.index t 0 * 2000 + 1 * (y 0).val = (i 0).val; rw [e0, h0]; omega
  | ⟨1, _⟩ => show win3_0.index t 1 * 512 + 1 * (y 1).val = (i 1).val; rw [e1, h1]; omega

/-- The weights' block at every point is the whole weight matrix. -/
theorem weights_apply (c : Dev nD) (t : Fin cfg3.N) (y : S512x40.Idx) (i : S512x40.Idx)
    (h0 : (i 0).val = (y 0).val) (h1 : (i 1).val = (y 1).val) :
    wblk V c t y = warr V c i := by
  obtain ⟨-, -, e0, e1, -⟩ := blockIdx t
  unfold wblk warr iblk3
  rw [View.read_apply]
  show V c main_arg9 _ = V c main_arg9 _
  congr 1
  funext a
  apply Fin.ext
  match a with
  | ⟨0, _⟩ => show win3_1.index t 0 * 512 + 1 * (y 0).val = (i 0).val; rw [e0, h0]; omega
  | ⟨1, _⟩ => show win3_1.index t 1 * 40 + 1 * (y 1).val = (i 1).val; rw [e1, h1]; omega

/-- The bias window's block at every point is the whole bias row. -/
theorem bias_apply (c : Dev nD) (t : Fin cfg3.N) (y : S1x40.Idx) (i : S1x40.Idx)
    (h0 : (i 0).val = (y 0).val) (h1 : (i 1).val = (y 1).val) :
    bblk V c t y = barr V c i := by
  obtain ⟨-, -, -, -, e0, e1, -⟩ := blockIdx t
  unfold bblk barr iblk3
  rw [View.read_apply]
  show V c main_v39 _ = V c main_v39 _
  congr 1
  funext a
  apply Fin.ext
  match a with
  | ⟨0, _⟩ => show win3_2.index t 0 * 1 + 1 * (y 0).val = (i 0).val; rw [e0, h0]; omega
  | ⟨1, _⟩ => show win3_2.index t 1 * 40 + 1 * (y 1).val = (i 1).val; rw [e1, h1]; omega

/-- What point `t` writes back is block `t` of the classifier layer of the arrays the region found. -/
theorem flushed_eq (c : Dev nD) (t : Fin cfg3.N) :
    (dat3 V c).flushed 3 t = ((cfg3.win 3).blk t).view.read (Elt Ideal) (denseOut (zarr V c) (warr V c) (barr V c)) := by
  show (cfg3.win 3).cut (grid3.coords t) ((dat3 V c).after 3 t) = _
  rw [after3_3]
  unfold out3_3
  rw [View.canon_unit_zero hz]
  simp only [View.ld_unit_zero (S := S2000x512) hz, View.ld_unit_zero (S := S512x40) hz, View.ld_unit_zero (S := S1x40) hz]
  obtain ⟨-, -, -, -, -, -, e0, e1⟩ := blockIdx t
  funext j
  show k3_pay1 (xblk V c t) (wblk V c t) (bblk V c t) j
    = denseOut (zarr V c) (warr V c) (barr V c) (((cfg3.win 3).blk t).view.emb j)
  refine (out_apply (xblk V c t) (wblk V c t) (bblk V c t) j).trans ?_
  unfold denseOut
  have hi0 : ((((cfg3.win 3).blk t).view.emb j) 0).val = 2000 * t.val + (j 0).val := by
    show win3_3.index t 0 * 2000 + 1 * (j 0).val = _; rw [e0]; omega
  have hi1 : ((((cfg3.win 3).blk t).view.emb j) 1).val = (j 1).val := by
    show win3_3.index t 1 * 40 + 1 * (j 1).val = _; rw [e1]; omega
  have e : ∀ k : Fin 512, xblk V c t (rowAtOut j k) * wblk V c t (colAtOut j k)
      = zarr V c (zAtOut (((cfg3.win 3).blk t).view.emb j) k) * warr V c (wAtOut (((cfg3.win 3).blk t).view.emb j) k) := fun k => by
    rw [rows_apply V c t (rowAtOut j k) (zAtOut (((cfg3.win 3).blk t).view.emb j) k) hi0 rfl,
      weights_apply V c t (colAtOut j k) (wAtOut (((cfg3.win 3).blk t).view.emb j) k) rfl hi1]
  rw [Finset.sum_congr rfl fun k _ => e k, bias_apply V c t (biasAtOut j) (bAtOut (((cfg3.win 3).blk t).view.emb j)) rfl hi1]

/-- An index of the result array is in point `t`'s block iff each coordinate is in the block's range. -/
theorem mem_blk (t : Fin cfg3.N) (i : S50000x40.Idx) :
    i ∈ ((cfg3.win 3).blk t).view.set ↔ ∀ a : Fin 2, win3_3.index t a * S2000x40.size a ≤ (i a).val ∧ (i a).val < win3_3.index t a * S2000x40.size a + S2000x40.size a := by
  show i ∈ ((View.whole main_v40).slice (win3_3.rect t)).set ↔ _
  rw [View.set_slice_whole, Rect.mem_set_unit]
  exact Iff.rfl

/-- Every element of the result array is in some point's block: row `r` is written at point `r / 2000`. -/
theorem cover (i : S50000x40.Idx) : ∃ t : Fin cfg3.N, (cfg3.win 3).flush t = true ∧ i ∈ ((cfg3.win 3).blk t).view.set := by
  have hi0 : (i 0).val < 50000 := (i 0).isLt
  have hi1 : (i 1).val < 40 := (i 1).isLt
  have hN : cfg3.N = 25 := N_3
  have hlt : (i 0).val / 2000 < cfg3.N := by rw [hN]; omega
  obtain ⟨-, -, -, -, -, -, e0, e1⟩ := blockIdx ⟨(i 0).val / 2000, hlt⟩
  refine ⟨⟨(i 0).val / 2000, hlt⟩, flush3_3 _, ?_⟩
  rw [mem_blk]
  intro a
  match a with
  | ⟨0, _⟩ =>
    show win3_3.index ⟨(i 0).val / 2000, hlt⟩ 0 * 2000 ≤ (i 0).val ∧ (i 0).val < win3_3.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win3_3.index ⟨(i 0).val / 2000, hlt⟩ 1 * 40 ≤ (i 1).val ∧ (i 1).val < win3_3.index ⟨(i 0).val / 2000, hlt⟩ 1 * 40 + 40
    rw [e1]; omega

/-- The region's output array after its last point: the classifier layer of the arrays it was entered with. -/
theorem result (c : Dev nD) :
    (dat3 V c).arrAt 3 cfg3.N = denseOut (zarr V c) (warr V c) (barr V c) :=
  (dat3 V c).arrAt_eq_of_cover 3 _ (fun t _ => flushed_eq V c t) cover

end Cert.KernelIdeal.Layer.R3

end
-- ==== Proof.KernelValue.lean ====
/-
  The idealized kernel's result: after @main the result array holds the network of the arguments.

  Each launch's output array is the dense layer of what the launch was entered with (the region modules), and what it
  was entered with is the neighbour aggregate of the previous launch's output array beside arguments nothing has
  written (the fold through the host operations). Composing the four launches gives the network.
-/
import proofs.«101499_j11751030522384_1_alg».proof.Proof.KernelRun
import proofs.«101499_j11751030522384_1_alg».proof.Proof.HostFold
import proofs.«101499_j11751030522384_1_alg».proof.Proof.Network
import proofs.«101499_j11751030522384_1_alg».proof.Proof.Region0
import proofs.«101499_j11751030522384_1_alg».proof.Proof.Region1
import proofs.«101499_j11751030522384_1_alg».proof.Proof.Region2
import proofs.«101499_j11751030522384_1_alg».proof.Proof.Region3

set_option maxRecDepth 16384

noncomputable section

namespace Cert.KernelIdeal.Layer

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first launch: the first GIN layer of the features. -/
theorem after_layer1 (c : Dev nD) :
    W2 m ρ c (Proc.devRef .tc main_v12) = ginLayer (m ((c : Thread nD τ).loc main_arg0)) (m ((c : Thread nD τ).loc main_arg1)) (m ((c : Thread nD τ).loc main_arg2)) (m ((c : Thread nD τ).loc main_arg3)) (m ((c : Thread nD τ).loc main_arg4)) := by
  rw [exit0 m ρ c, R0.result (V1 m ρ) c]
  show denseRelu (V1 m ρ c main_v10) (V1 m ρ c main_arg3) (V1 m ρ c main_v11) = _
  rw [entry0_z m ρ c, entry0_w m ρ c, entry0_b m ρ c]
  rfl

/-- After the second launch: the second GIN layer of the first's result. -/
theorem after_layer2 (c : Dev nD) :
    W4 m ρ c (Proc.devRef .tc main_v25)
      = ginLayer (ginLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6)) := by
  rw [exit1 m ρ c, R1.result (V3 m ρ) c]
  show denseRelu (V3 m ρ c main_v23) (V3 m ρ c main_arg5) (V3 m ρ c main_v24) = _
  rw [entry1_z m ρ c, entry1_w m ρ c, entry1_b m ρ c, after_layer1 m ρ c]
  rfl

/-- After the third launch: the third GIN layer of the second's result. -/
theorem after_layer3 (c : Dev nD) :
    W6 m ρ c (Proc.devRef .tc main_v38)
      = ginLayer (ginLayer (ginLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8)) := by
  rw [exit2 m ρ c, R2.result (V5 m ρ) c]
  show denseRelu (V5 m ρ c main_v36) (V5 m ρ c main_arg7) (V5 m ρ c main_v37) = _
  rw [entry2_z m ρ c, entry2_w m ρ c, entry2_b m ρ c, after_layer2 m ρ c]
  rfl

/-- After the last launch the result array holds the network of the arguments. -/
theorem result_eq (c : Dev nD) :
    W8 m ρ c (Proc.devRef .tc main_v40)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [exit3 m ρ c, R3.result (V7 m ρ) c]
  show denseOut (V7 m ρ c main_v38) (V7 m ρ c main_arg9) (V7 m ρ c main_v39) = _
  rw [entry3_z m ρ c, entry3_w m ρ c, entry3_b m ρ c, after_layer3 m ρ c]
  rfl

/-- The run of the idealized kernel: the result array at the network of the arguments, the arguments unchanged. -/
theorem run : θ_run defs (onTc (τ := τ) (main (F := Ideal))) ⟨m, fun _ => 0, ρ⟩ (fun r => ∀ c : Dev nD,
      r.2.mem ((c.tc : Thread nD τ).loc main_v40)
        = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (Cert.KernelIdeal.Run.run_result m ρ)

end Cert.KernelIdeal.Layer

end
-- ==== Proof.RefValue.lean ====
/-
  The idealized reference's result is the same network of the arguments.

  The reference computes each GIN layer as `relu ((h + agg) @ W + b)` with a `dot_general`, the bias broadcast to every
  row and a maximum with zero. Read at one element (the generated stage lemmas), that is the sum over the 512 shared
  coordinates of the products, plus the bias at the column, clamped at zero: the dense layer. The neighbour
  aggregation is the very same host operations in both programs.
-/
import proofs.«101499_j11751030522384_1_alg».proof.Proof.Gen.ReferenceIdeal.Read
import proofs.«101499_j11751030522384_1_alg».proof.Proof.Network

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem
open Cert.KernelIdeal.Layer (denseRelu denseOut aggregate biasRow biasRowOut ginLayer network denseRelu_of denseOut_of)

variable (x0 : (⟨S50000x512, .f32⟩ : BufTy).Contents (Elt Ideal)) (x1 x2 : (⟨S400000, .i32⟩ : BufTy).Contents (Elt Ideal))
  (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x40, .f32⟩ : BufTy).Contents (Elt Ideal)) (x10 : (⟨S40, .f32⟩ : BufTy).Contents (Elt Ideal))

/-! ## The aggregation is the same host operations -/

theorem agg1 : val_main_v10 (F := Ideal) x0 x1 x2 = aggregate x0 x1 x2 := rfl
theorem agg2 : val_main_v26 (F := Ideal) x0 x1 x2 x3 x4 = aggregate (val_main_v15 (F := Ideal) x0 x1 x2 x3 x4) x1 x2 := rfl
theorem agg3 : val_main_v42 (F := Ideal) x0 x1 x2 x3 x4 x5 x6
    = aggregate (val_main_v31 (F := Ideal) x0 x1 x2 x3 x4 x5 x6) x1 x2 := rfl

/-! ## Each layer's product, bias and clamp is the dense layer -/

theorem dense1 : val_main_v15 (F := Ideal) x0 x1 x2 x3 x4 = denseRelu (val_main_v10 (F := Ideal) x0 x1 x2) x3 (biasRow x4) := by
  funext i
  rw [val_main_v15_apply, val_main_v14_apply, val_main_v11_apply, val_main_v13_apply, val_main_v12_apply,
    val_main_call0_v0_apply, val_main_call0_cst_apply]
  exact denseRelu_of (val_main_v10 (F := Ideal) x0 x1 x2) x3 x4 i (lidx_main_v11 i) (ridx_main_v11 i) (idx_main_v12 (idx_main_v13 i))
    (fun k => funext fun a => Fin.ext (by match a with | ⟨0, _⟩ => rfl | ⟨1, _⟩ => rfl))
    (fun k => funext fun a => Fin.ext (by match a with | ⟨0, _⟩ => rfl | ⟨1, _⟩ => rfl)) rfl

theorem dense2 : val_main_v31 (F := Ideal) x0 x1 x2 x3 x4 x5 x6
    = denseRelu (val_main_v26 (F := Ideal) x0 x1 x2 x3 x4) x5 (biasRow x6) := by
  funext i
  rw [val_main_v31_apply, val_main_v30_apply, val_main_v27_apply, val_main_v29_apply, val_main_v28_apply,
    val_main_call1_v0_apply, val_main_call1_cst_apply]
  exact denseRelu_of (val_main_v26 (F := Ideal) x0 x1 x2 x3 x4) x5 x6 i (lidx_main_v27 i) (ridx_main_v27 i) (idx_main_v28 (idx_main_v29 i))
    (fun k => funext fun a => Fin.ext (by match a with | ⟨0, _⟩ => rfl | ⟨1, _⟩ => rfl))
    (fun k => funext fun a => Fin.ext (by match a with | ⟨0, _⟩ => rfl | ⟨1, _⟩ => rfl)) rfl

theorem dense3 : val_main_v47 (F := Ideal) x0 x1 x2 x3 x4 x5 x6 x7 x8
    = denseRelu (val_main_v42 (F := Ideal) x0 x1 x2 x3 x4 x5 x6) x7 (biasRow x8) := by
  funext i
  rw [val_main_v47_apply, val_main_v46_apply, val_main_v43_apply, val_main_v45_apply, val_main_v44_apply,
    val_main_call2_v0_apply, val_main_call2_cst_apply]
  exact denseRelu_of (val_main_v42 (F := Ideal) x0 x1 x2 x3 x4 x5 x6) x7 x8 i (lidx_main_v43 i) (ridx_main_v43 i) (idx_main_v44 (idx_main_v45 i))
    (fun k => funext fun a => Fin.ext (by match a with | ⟨0, _⟩ => rfl | ⟨1, _⟩ => rfl))
    (fun k => funext fun a => Fin.ext (by match a with | ⟨0, _⟩ => rfl | ⟨1, _⟩ => rfl)) rfl

theorem denseLast : val_main_v51 (F := Ideal) x0 x1 x2 x3 x4 x5 x6 x7 x8 x9 x10
    = denseOut (val_main_v47 (F := Ideal) x0 x1 x2 x3 x4 x5 x6 x7 x8) x9 (biasRowOut x10) := by
  funext i
  rw [val_main_v51_apply, val_main_v48_apply, val_main_v50_apply, val_main_v49_apply]
  exact denseOut_of (val_main_v47 (F := Ideal) x0 x1 x2 x3 x4 x5 x6 x7 x8) x9 x10 i (lidx_main_v48 i) (ridx_main_v48 i) (idx_main_v49 (idx_main_v50 i))
    (fun k => funext fun a => Fin.ext (by match a with | ⟨0, _⟩ => rfl | ⟨1, _⟩ => rfl))
    (fun k => funext fun a => Fin.ext (by match a with | ⟨0, _⟩ => rfl | ⟨1, _⟩ => rfl)) rfl

/-! ## The reference's result is the network -/

theorem ref_network : val_main_v51 (F := Ideal) x0 x1 x2 x3 x4 x5 x6 x7 x8 x9 x10 = network x0 x1 x2 x3 x4 x5 x6 x7 x8 x9 x10 := by
  rw [denseLast, dense3, agg3, dense2, agg2, dense1, agg1]
  rfl

end Cert.ReferenceIdeal.RefValue

end
-- ==== Proof.lean ====
/-
  Three GIN layers and a linear classifier on a graph of 50000 nodes and 400000 edges: the Pallas kernel against its
  jnp reference, over the extended reals.

  Both programs aggregate each node's neighbours on the host by the same operations (wrap negative source indices,
  gather the source rows, scatter-add them at the destinations, add the node's own row). The kernel then runs each
  dense layer as a pipelined launch over 25 blocks of 2000 rows — operands narrowed to bf16, a product into a zero
  accumulator, the bias row added, a clamp at zero for the hidden layers — where the reference writes
  `relu (z @ W + b)`. Over the extended reals the narrowing is the identity and both products are the same sum over
  the 512 shared coordinates, so each launch's output array is the reference's layer of the same input, element by
  element, and the four layers compose to one function of the arguments (`network`). No law beyond the sums' own
  shape is used, so the precondition is never opened.

  The three frames are the generated frames (the reference's is its generated run with the result dropped); the
  ledger of the idealization is empty.
-/
import proofs.«101499_j11751030522384_1_alg».proof.Defs
import proofs.«101499_j11751030522384_1_alg».proof.Proof.Gen.Kernel
import proofs.«101499_j11751030522384_1_alg».proof.Proof.Gen.Kernel.Skeleton
import proofs.«101499_j11751030522384_1_alg».proof.Proof.Gen.Kernel.Launch
import proofs.«101499_j11751030522384_1_alg».proof.Proof.Gen.Kernel.Points
import proofs.«101499_j11751030522384_1_alg».proof.Proof.Gen.Kernel.Frame
import proofs.«101499_j11751030522384_1_alg».proof.Proof.Gen.KernelIdeal
import proofs.«101499_j11751030522384_1_alg».proof.Proof.Gen.KernelIdeal.Skeleton
import proofs.«101499_j11751030522384_1_alg».proof.Proof.Gen.KernelIdeal.Launch
import proofs.«101499_j11751030522384_1_alg».proof.Proof.Gen.KernelIdeal.Points
import proofs.«101499_j11751030522384_1_alg».proof.Proof.Gen.KernelIdeal.Frame
import proofs.«101499_j11751030522384_1_alg».proof.Proof.Gen.ReferenceIdeal
import proofs.«101499_j11751030522384_1_alg».proof.Proof.Gen.Pre_finite_inputs
import proofs.«101499_j11751030522384_1_alg».proof.Proof.Gen.ReferenceIdeal.Run
import proofs.«101499_j11751030522384_1_alg».proof.Proof.Gen.ReferenceIdeal.Read
import proofs.«101499_j11751030522384_1_alg».proof.Proof.KernelValue
import proofs.«101499_j11751030522384_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the arguments in their result array: the kernel by its four
    launches composed, the reference by its stages read element by element; the arguments agree. -/
theorem algebraic : Cert.algebraic_KernelIdeal_ReferenceIdeal := by
  intro m ρ m' ρ' _ hagree
  refine ⟨fun c => Cert.KernelIdeal.Layer.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefValue.ref_network]
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
